-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S200000x3 : Shape := ⟨2, ![200000, 3]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S200000x3 : S_.BroadcastsInDim S200000x3 (![] : Fin 0 → Fin S200000x3.rank)
  reducesTo_S200000x3_S_d0_1 : S200000x3.ReducesTo [0, 1] S_

variable [Facts]

def fn {F : FTy → Type} [FloatOps F] (main_arg0 : FVec F S8192x128 .f32) (main_arg1 : IVec S200000x3 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_c_0 : IVec S_ 32 := constantI S_ 32 0#32
  let main_v4 : IVec S200000x3 32 := broadcastInDim S200000x3 ![] bcast_S_S200000x3 main_c_0
  let main_v5 : IVec S200000x3 1 := cmpi .sge main_arg1 main_v4
  let main_c_1 : IVec S_ 1 := constantI S_ 1 1#1
  let main_v6 : IVec S_ 1 := (fun x v => Host.reduce IntOp.andi x v reducesTo_S200000x3_S_d0_1 h_S_) main_v5 main_c_1
  let main_v7 : IVec S_ 1 := andi main_v3 main_v6
  let main_c_2 : IVec S_ 32 := constantI S_ 32 8192#32
  let main_v8 : IVec S200000x3 32 := broadcastInDim S200000x3 ![] bcast_S_S200000x3 main_c_2
  let main_v9 : IVec S200000x3 1 := cmpi .slt main_arg1 main_v8
  let main_c_3 : IVec S_ 1 := constantI S_ 1 1#1
  let main_v10 : IVec S_ 1 := (fun x v => Host.reduce IntOp.andi x v reducesTo_S200000x3_S_d0_1 h_S_) main_v9 main_c_3
  let main_v11 : IVec S_ 1 := andi main_v7 main_v10
  main_v11
-- ==== Kernel.lean ====
abbrev S8192x128 : Shape := ⟨2, ![8192, 128]⟩
abbrev S200000x3 : Shape := ⟨2, ![200000, 3]⟩
abbrev S8192x256 : Shape := ⟨2, ![8192, 256]⟩
abbrev S_ : Shape := ⟨0, ![]⟩
abbrev S200704x3 : Shape := ⟨2, ![200704, 3]⟩
abbrev S200704 : Shape := ⟨1, ![200704]⟩
abbrev S200704x1 : Shape := ⟨2, ![200704, 1]⟩
abbrev S200704x4 : Shape := ⟨2, ![200704, 4]⟩
abbrev S2x1x1 : Shape := ⟨3, ![2, 1, 1]⟩
abbrev S1024x4 : Shape := ⟨2, ![1024, 4]⟩
abbrev S1x1x1 : Shape := ⟨3, ![1, 1, 1]⟩
abbrev S1x1 : Shape := ⟨2, ![1, 1]⟩
abbrev S3072x256 : Shape := ⟨2, ![3072, 256]⟩
abbrev S1024x1 : Shape := ⟨2, ![1024, 1]⟩
abbrev S3072x1 : Shape := ⟨2, ![3072, 1]⟩
abbrev S1x1024 : Shape := ⟨2, ![1, 1024]⟩
abbrev S3072x1024 : Shape := ⟨2, ![3072, 1024]⟩
abbrev S1024x256 : Shape := ⟨2, ![1024, 256]⟩
abbrev S3072x128 : Shape := ⟨2, ![3072, 128]⟩
abbrev S1024x128 : Shape := ⟨2, ![1024, 128]⟩
abbrev S1024 : Shape := ⟨1, ![1024]⟩
abbrev S1 : Shape := ⟨1, ![1]⟩

abbrev nBuf : Space → Nat
  | .hbm => 23
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S200000x3, .i32⟩
  | .hbm, ⟨2, _⟩ => ⟨S8192x128, .bf16⟩
  | .hbm, ⟨3, _⟩ => ⟨S8192x128, .f32⟩
  | .hbm, ⟨4, _⟩ => ⟨S8192x128, .f32⟩
  | .hbm, ⟨5, _⟩ => ⟨S8192x128, .bf16⟩
  | .hbm, ⟨6, _⟩ => ⟨S8192x256, .bf16⟩
  | .hbm, ⟨7, _⟩ => ⟨S_, .i32⟩
  | .hbm, ⟨8, _⟩ => ⟨S_, .i32⟩
  | .hbm, ⟨9, _⟩ => ⟨S200704x3, .i32⟩
  | .hbm, ⟨10, _⟩ => ⟨S200704, .i32⟩
  | .hbm, ⟨11, _⟩ => ⟨S_, .i32⟩
  | .hbm, ⟨12, _⟩ => ⟨S200704, .i32⟩
  | .hbm, ⟨13, _⟩ => ⟨S200704, .i1⟩
  | .hbm, ⟨14, _⟩ => ⟨S200704, .i32⟩
  | .hbm, ⟨15, _⟩ => ⟨S200704x1, .i32⟩
  | .hbm, ⟨16, _⟩ => ⟨S200704x4, .i32⟩
  | .hbm, ⟨17, _⟩ => ⟨S2x1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1, .f32⟩
  | .local _ .vmem, ⟨0, _⟩ => ⟨S1024x4, .i32⟩
  | .local _ .vmem, ⟨1, _⟩ => ⟨S1024x4, .i32⟩
  | .local _ .vmem, ⟨2, _⟩ => ⟨S8192x256, .bf16⟩
  | .local _ .vmem, ⟨3, _⟩ => ⟨S1x1x1, .f32⟩
  | .local _ .vmem, ⟨4, _⟩ => ⟨S1x1x1, .f32⟩
  | .local _ .vmem, ⟨5, _⟩ => ⟨S1x1, .f32⟩
  | .local _ .vmem, ⟨6, _⟩ => ⟨S3072x256, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 98], ![false, false]⟩

@[reducible] def k0_t1_loop : Scf.Loop 32 :=
  let c0_i32_4 : BitVec 32 := 0#32
  let c8_i32 : BitVec 32 := 8#32
  let v15 : BitVec 32 := Scalar.addi c0_i32_4 c8_i32
  let c1_i32 : BitVec 32 := 1#32
  ⟨c0_i32_4, v15, c1_i32⟩
def k0_mult1 (k0_t1 : Fin k0_t1_loop.trips) : BitVec 32 :=
  let c0_i32_4 : BitVec 32 := 0#32
  let c1_i32 : BitVec 32 := 1#32
  let arg7 : BitVec 32 := Scf.iv c0_i32_4 c1_i32 k0_t1
  let c1024_i32 : BitVec 32 := 1024#32
  let v76 : BitVec 32 := Scalar.muli arg7 c1024_i32
  v76
def k0_off1 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c1024_i32 : BitVec 32 := 1024#32
  let v76 : BitVec 32 := Scalar.muli arg7 c1024_i32
  let v77 : BitVec 32 := v76
  let v87 : Index := Scalar.indexCast v77
  let c0_25 : Index := 0#32
  ![v87.toNat, 0]
def k0_cond2 (i : grid0.Coords) : BitVec 1 :=
  let arg1 : BitVec 32 := BitVec.ofNat 32 (i 1).val
  let c97_i32 : BitVec 32 := 97#32
  let v73 : BitVec 1 := Scalar.cmpi .eq arg1 c97_i32
  let v74 : BitVec 32 := Scalar.extui v73
  let c0_i32_24 : BitVec 32 := 0#32
  let v75 : BitVec 1 := Scalar.cmpi .ne v74 c0_i32_24
  v75

def cc0_transform_0 (i : grid0.Coords) : Fin 2 → Nat :=
  let arg0 : BitVec 32 := BitVec.ofNat 32 (i 0).val
  let arg1 : BitVec 32 := BitVec.ofNat 32 (i 1).val
  let c98_i32 : BitVec 32 := 98#32
  let v0 : BitVec 32 := Scalar.muli arg0 c98_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  concatenates_S8192x128_S8192x128_S8192x256_d1 : Shape.Concatenates [S8192x128, S8192x128] S8192x256 1
  pads_S200000x3_S200704x3_07040_000 : S200000x3.Pads (![0, 0] : Fin 2 → Nat) ![704, 0] ![0, 0] S200704x3
  h_S_ : 0 < S_.numel
  bcast_S_S200704 : S_.BroadcastsInDim S200704 (![] : Fin 0 → Fin S200704.rank)
  natLt_1_32 : 1 < 32
  bcast_S200704_S200704x1_0 : S200704.BroadcastsInDim S200704x1 (![0] : Fin 1 → Fin S200704x1.rank)
  concatenates_S200704x3_S200704x1_S200704x4_d1 : Shape.Concatenates [S200704x3, S200704x1] S200704x4 1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  slices_S1024x4_o0_0_S1024x1 : S1024x4.Slices ![0, 0] S1024x1
  slices_S1024x4_o0_1_S1024x1 : S1024x4.Slices ![0, 1] S1024x1
  slices_S1024x4_o0_2_S1024x1 : S1024x4.Slices ![0, 2] S1024x1
  slices_S1024x4_o0_3_S1024x1 : S1024x4.Slices ![0, 3] S1024x1
  concatenates_S1024x1_S1024x1_S1024x1_S3072x1_d0 : Shape.Concatenates [S1024x1, S1024x1, S1024x1] S3072x1 0
  inb_S3072x256_S3072x256_0_0 : ∀ a, (![0, 0] : Fin 2 → Nat) a + S3072x256.size a ≤ S3072x256.size a
  h_S3072x256 : 0 < S3072x256.numel
  shapeCasts_S3072x256_S3072x256 : S3072x256.ShapeCasts S3072x256
  iota_S1x1024_d1_w32 : S1x1024.Iotas .tc 32 [1]
  broadcasts_S3072x1_S3072x1024 : S3072x1.Broadcasts S3072x1024
  broadcasts_S1x1024_S3072x1024 : S1x1024.Broadcasts S3072x1024
  h_S1024x256 : 0 < S1024x256.numel
  shapeCasts_S1024x256_S1024x256 : S1024x256.ShapeCasts S1024x256
  slices_S3072x256_o0_0_S3072x128 : S3072x256.Slices ![0, 0] S3072x128
  slices_S3072x256_o0_128_S3072x128 : S3072x256.Slices ![0, 128] S3072x128
  slices_S3072x128_o0_0_S1024x128 : S3072x128.Slices ![0, 0] S1024x128
  slices_S3072x128_o1024_0_S1024x128 : S3072x128.Slices ![1024, 0] S1024x128
  slices_S3072x128_o2048_0_S1024x128 : S3072x128.Slices ![2048, 0] S1024x128
  reduces_S1024x128_S1024 : S1024x128.Reduces [1] S1024
  shapeCasts_S1024_S1024x1 : S1024.ShapeCasts S1024x1
  reduces_S1024x1_S1 : S1024x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  shapeCasts_S_S1 : S_.ShapeCasts S1
  dot_S3072x1024_S1024x256_S3072x256_1_0_0_1_n_n_wf : DotDims.WF S3072x1024 S1024x256 S3072x256 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4.size a ≤ S200704x4.size a
  hwx0_0 : ∀ i : grid0.Coords, EltTy.bits .i32 = 32 ∨ (Rect.block (s := S200704x4) S1024x4.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

def dot_S3072x1024_S1024x256_S3072x256_1_0_0_1_n_n : DotDims S3072x1024 S1024x256 S3072x256 where
  lhsContracting := [1]
  rhsContracting := [0]
  lhsNonContracting := [0]
  rhsNonContracting := [1]
  lhsBatch := []
  rhsBatch := []
  wf := dot_S3072x1024_S1024x256_S3072x256_1_0_0_1_n_n_wf

abbrev win0_0 : Pipeline.Window sig grid0 :=
  Pipeline.Window.ofSpec (Memref.whole main_v11) S1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S200000x3 : Shape := ⟨2, ![200000, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩
abbrev S200000x1 : Shape := ⟨2, ![200000, 1]⟩
abbrev S200000 : Shape := ⟨1, ![200000]⟩
abbrev S200000x2 : Shape := ⟨2, ![200000, 2]⟩
abbrev S1 : Shape := ⟨1, ![1]⟩

abbrev nBuf : Space → Nat
  | .hbm => 82
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S200000x3, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S200000x1, .i32⟩
  | .hbm, ⟨21, _⟩ => ⟨S200000, .i32⟩
  | .hbm, ⟨22, _⟩ => ⟨S200000x1, .i32⟩
  | .hbm, ⟨23, _⟩ => ⟨S200000, .i32⟩
  | .hbm, ⟨24, _⟩ => ⟨S200000x1, .i32⟩
  | .hbm, ⟨25, _⟩ => ⟨S200000, .i32⟩
  | .hbm, ⟨26, _⟩ => ⟨S_, .i32⟩
  | .hbm, ⟨27, _⟩ => ⟨S200000, .i32⟩
  | .hbm, ⟨28, _⟩ => ⟨S200000, .i1⟩
  | .hbm, ⟨29, _⟩ => ⟨S_, .i32⟩
  | .hbm, ⟨30, _⟩ => ⟨S200000, .i32⟩
  | .hbm, ⟨31, _⟩ => ⟨S200000, .i32⟩
  | .hbm, ⟨32, _⟩ => ⟨S200000, .i32⟩
  | .hbm, ⟨33, _⟩ => ⟨S_, .i32⟩
  | .hbm, ⟨34, _⟩ => ⟨S200000, .i32⟩
  | .hbm, ⟨35, _⟩ => ⟨S200000, .i1⟩
  | .hbm, ⟨36, _⟩ => ⟨S_, .i32⟩
  | .hbm, ⟨37, _⟩ => ⟨S200000, .i32⟩
  | .hbm, ⟨38, _⟩ => ⟨S200000, .i32⟩
  | .hbm, ⟨39, _⟩ => ⟨S200000, .i32⟩
  | .hbm, ⟨40, _⟩ => ⟨S200000x1, .i32⟩
  | .hbm, ⟨41, _⟩ => ⟨S200000x1, .i32⟩
  | .hbm, ⟨42, _⟩ => ⟨S200000x2, .i32⟩
  | .hbm, ⟨43, _⟩ => ⟨S200000, .f32⟩
  | .hbm, ⟨44, _⟩ => ⟨S_, .i32⟩
  | .hbm, ⟨45, _⟩ => ⟨S200000, .i32⟩
  | .hbm, ⟨46, _⟩ => ⟨S200000, .i1⟩
  | .hbm, ⟨47, _⟩ => ⟨S_, .i32⟩
  | .hbm, ⟨48, _⟩ => ⟨S200000, .i32⟩
  | .hbm, ⟨49, _⟩ => ⟨S200000, .i32⟩
  | .hbm, ⟨50, _⟩ => ⟨S200000, .i32⟩
  | .hbm, ⟨51, _⟩ => ⟨S_, .i32⟩
  | .hbm, ⟨52, _⟩ => ⟨S200000, .i32⟩
  | .hbm, ⟨53, _⟩ => ⟨S200000, .i1⟩
  | .hbm, ⟨54, _⟩ => ⟨S_, .i32⟩
  | .hbm, ⟨55, _⟩ => ⟨S200000, .i32⟩
  | .hbm, ⟨56, _⟩ => ⟨S200000, .i32⟩
  | .hbm, ⟨57, _⟩ => ⟨S200000, .i32⟩
  | .hbm, ⟨58, _⟩ => ⟨S200000x1, .i32⟩
  | .hbm, ⟨59, _⟩ => ⟨S200000x1, .i32⟩
  | .hbm, ⟨60, _⟩ => ⟨S200000x2, .i32⟩
  | .hbm, ⟨61, _⟩ => ⟨S200000, .f32⟩
  | .hbm, ⟨62, _⟩ => ⟨S200000, .f32⟩
  | .hbm, ⟨63, _⟩ => ⟨S_, .f32⟩
  | .hbm, ⟨64, _⟩ => ⟨S200000, .f32⟩
  | .hbm, ⟨65, _⟩ => ⟨S200000, .f32⟩
  | .hbm, ⟨66, _⟩ => ⟨S200000, .f32⟩
  | .hbm, ⟨67, _⟩ => ⟨S200000, .f32⟩
  | .hbm, ⟨68, _⟩ => ⟨S200000, .i1⟩
  | .hbm, ⟨69, _⟩ => ⟨S200000, .f32⟩
  | .hbm, ⟨70, _⟩ => ⟨S200000, .f32⟩
  | .hbm, ⟨71, _⟩ => ⟨S200000, .f32⟩
  | .hbm, ⟨72, _⟩ => ⟨S200000, .f32⟩
  | .hbm, ⟨73, _⟩ => ⟨S200000, .f32⟩
  | .hbm, ⟨74, _⟩ => ⟨S200000, .f32⟩
  | .hbm, ⟨75, _⟩ => ⟨S200000, .f32⟩
  | .hbm, ⟨76, _⟩ => ⟨S200000, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S1, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_c_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  slices_S200000x3_S200000x1_0_0 : S200000x3.Slices ![0, 0] S200000x1
  shapeCasts_S200000x1_S200000 : S200000x1.ShapeCasts S200000
  slices_S200000x3_S200000x1_0_1 : S200000x3.Slices ![0, 1] S200000x1
  slices_S200000x3_S200000x1_0_2 : S200000x3.Slices ![0, 2] S200000x1
  bcast_S_S200000 : S_.BroadcastsInDim S200000 (![] : Fin 0 → Fin S200000.rank)
  bcast_S200000_S200000x1_0 : S200000.BroadcastsInDim S200000x1 (![0] : Fin 1 → Fin S200000x1.rank)
  concatenates_S200000x1_S200000x1_S200000x2_d1 : Shape.Concatenates [S200000x1, S200000x1] S200000x2 1
  reducesTo_S200000_S_d0 : S200000.ReducesTo [0] S_
  bcast_S_S1 : S_.BroadcastsInDim S1 (![] : Fin 0 → Fin S1.rank)
  dot_S8192x128_S128x8192_S8192x8192_1_0_0_1_n_n_wf : DotDims.WF S8192x128 S128x8192 S8192x8192 [1] [0] [0] [1] [] []
  gather_S8192x8192_S200000x2_S200000_n_01_n_n_01_1_11_wf : GatherDims.WF S8192x8192 S200000x2 S200000 [] [0, 1] [] [0, 1] [] 1 ![1, 1]

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def gather_S8192x8192_S200000x2_S200000_n_01_n_n_01_1_11 : GatherDims S8192x8192 S200000x2 S200000 where
  offsetDims := []
  collapsedSliceDims := [0, 1]
  operandBatchingDims := []
  startIndicesBatchingDims := []
  startIndexMap := [0, 1]
  indexVectorDim := 1
  sliceSizes := ![1, 1]
  wf := gather_S8192x8192_S200000x2_S200000_n_01_n_n_01_1_11_wf

class Facts : Prop extends Facts₀ where

variable [Facts]
-- ==== Proof.KStep.lean ====
/-
  One grid point of the kernel as a pure function of what it finds: the block of 1024 triplets (with their
  validity column), the stacked table of rows, and the running sum the point before left.

  The gather loop runs over eight chunks of 1024 table rows: `loopVal k` is the gathered-rows accumulator
  after `k` chunks (zero, then each chunk's one-hot product added); `stepVal` is the running sum after the
  point: the sum found plus the point's 1024 contributions.
-/
import proofs.«404929_j80427557585292_3_alg».proof.Proof.Gen.KernelIdeal.Skeleton
import Idealize.ShloMosaic.Lib.ValueIdx

noncomputable section

namespace Cert.KernelIdeal.KStep

open Idealize.ShloMosaic Idealize.ShloMosaic.ValueIdx Cert.KernelIdeal Cert.KernelIdeal.Gen

variable {F : FTy → Type} [FloatOps F]

/-- The loop makes at most eight trips. -/
theorem trips_le : k0_t1_loop.trips ≤ 8 := k0_t1_abs.2.1

/-- Rows `1024·k … 1024·k + 1023` of the stacked table: what chunk `k` of the gather multiplies by. -/
def chunk (x1 : Vec F S8192x256 .bf16) (k : Fin k0_t1_loop.trips) : Vec F S1024x256 .bf16 :=
  fun y => x1 (ix2 (⟨1024 * k.val + (y 0).val, by
      have h1 := k.isLt; have h2 := trips_le; have h3 := idx2_lt0 y; omega⟩ : Fin 8192)
    (⟨(y 1).val, idx2_lt1 y⟩ : Fin 256))

/-- The word at stacked row `ρ` of the index column the gather compares against: column `ρ / 1024` of triplet `ρ % 1024`
    (the three index columns of the block laid one under another). -/
def idxStack (x0 : Vec F S1024x4 .i32) (ρ : Fin 3072) : BitVec 32 :=
  x0 (ix2 (⟨ρ.val % 1024, Nat.mod_lt _ (by norm_num)⟩ : Fin 1024) (⟨ρ.val / 1024, by have := ρ.isLt; omega⟩ : Fin 4))

/-- The gathered-rows accumulator after `k` chunks. -/
def loopVal (x0 : Vec F S1024x4 .i32) (x1 : Vec F S8192x256 .bf16) : ℕ → Vec F S3072x256 .f32
  | 0 => k0_pay6
  | k + 1 => if h : k < k0_t1_loop.trips then k0_pay7 x0 ⟨k, h⟩ (chunk x1 ⟨k, h⟩) (loopVal x0 x1 k)
             else loopVal x0 x1 k

/-- The running sum after a point that found `acc`. -/
def stepVal (x0 : Vec F S1024x4 .i32) (x1 : Vec F S8192x256 .bf16) (acc : Vec F S1x1 .f32) : Vec F S1x1 .f32 :=
  k0_pay1 (k0_pay5 x0) (k0_pay12 (loopVal x0 x1 k0_t1_loop.trips)) (k0_pay13 (loopVal x0 x1 k0_t1_loop.trips))
    (k0_pay14 (loopVal x0 x1 k0_t1_loop.trips)) (k0_pay15 (loopVal x0 x1 k0_t1_loop.trips))
    (k0_pay16 (loopVal x0 x1 k0_t1_loop.trips)) acc

end Cert.KernelIdeal.KStep

end
-- ==== Proof.Pieces.lean ====
/-
  What one grid point leaves in the running-sum scratch and, at a core's last point, in the output block, as the
  pure function `stepVal` of the point's two input blocks and of the sum it found.

  The gather loop's accumulator is held as the list of its stores, each through the whole array: one trip stores
  its payload of the chunk it loads and of what the accumulator held (`tripL_eq`), a load through the whole array
  after such a store reads that payload whatever lies under it (`read_writes_newest`), so after `k` trips from the
  zero array the accumulator holds `loopVal k` (`loop_read`, by induction on the trips). The three control cases
  of the body then differ only in the sum they find: zero at a core's first point, the carried sum elsewhere; at a
  core's last point the output block is the sum just formed, re-laid as [1, 1, 1].
-/
import proofs.«404929_j80427557585292_3_alg».proof.Proof.Gen.KernelIdeal.Frame
import proofs.«404929_j80427557585292_3_alg».proof.Proof.KStep
import Idealize.ShloMosaic.Lib.Pipeline.Value

noncomputable section

namespace Cert.KernelIdeal.Pieces

open Idealize.ShloMosaic Idealize.ShloMosaic.ValueIdx Idealize.ShloMosaic.Tactic Cert.KernelIdeal Cert.KernelIdeal.Gen Cert.KernelIdeal.KStep

variable {F : FTy → Type} [FloatOps F]

theorem hz3 : (![0, 0, 0] : Fin 3 → Nat) = fun _ => 0 := by
  funext a; match a with | ⟨0, _⟩ => rfl | ⟨1, _⟩ => rfl | ⟨2, _⟩ => rfl

theorem hz2 : (![0, 0] : Fin 2 → Nat) = fun _ => 0 := by
  funext a; match a with | ⟨0, _⟩ => rfl | ⟨1, _⟩ => rfl

/-- One trip of the gather loop stores, through the whole accumulator, the trip's payload of the chunk it loads and
    of what it finds in the accumulator. -/
theorem tripL_eq (𝒱 : Variants) (c : Dev nD) (bd : Option 𝒱.V) (i : grid0.Coords) (arg2 : Memref sig .tc .vmem S1024x4 .i32) (harg2 : arg2.IsWhole) (arg3 : Memref sig .tc .vmem S8192x256 .bf16) (harg3 : arg3.IsWhole) (arg4 : Memref sig .tc .vmem S1x1x1 .f32) (harg4 : arg4.IsWhole) (arg5 : Memref sig .tc .vmem S1x1 .f32) (harg5 : arg5.IsWhole) (arg6 : Memref sig .tc .vmem S3072x256 .f32) (harg6 : arg6.IsWhole) (v3 : Vec F S1024x4 .i32) (X_arg3 : BufTy.Contents (Elt F) arg3.view.ty) (k : Fin k0_t1_loop.trips) (f_arg6 : BufTy.Contents (Elt F) arg6.view.ty) :
    tripL_k0_t1 (F := F) 𝒱 c bd i arg2 harg2 arg3 harg3 arg4 harg4 arg5 harg5 arg6 harg6 v3 X_arg3 k f_arg6
      = [⟨Rect.unit ![0, 0] S3072x256.size inb_S3072x256_S3072x256_0_0,
          k0_pay7 v3 k (View.readAt (Elt F) arg3.view (Rect.unit (s := S8192x256) (k0_off1 k) S1024x256.size (k0_off1_inb k)).toLoadRect X_arg3)
            (View.readAt (Elt F) arg6.view (Rect.unit ![0, 0] S3072x256.size inb_S3072x256_S3072x256_0_0).toLoadRect f_arg6)⟩] := by
  unfold tripL_k0_t1 trip_k0_t1
  rfl

/-- A load of the chunk's rows from the whole stacked table. -/
theorem chunk_read (arg3 : Memref sig .tc .vmem S8192x256 .bf16) (harg3 : arg3.IsWhole) (x1 : Vec F S8192x256 .bf16) (k : Fin k0_t1_loop.trips) :
    View.readAt (Elt F) arg3.view (Rect.unit (s := S8192x256) (k0_off1 k) S1024x256.size (k0_off1_inb k)).toLoadRect (harg3.unread x1)
      = chunk x1 k := by
  rw [View.readAt_eq_ld, harg3.read_unread]
  funext y
  unfold chunk
  show x1 ((Rect.unit (s := S8192x256) (k0_off1 k) S1024x256.size (k0_off1_inb k)).idx y) = x1 (ix2 _ _)
  congr 1
  funext a
  apply Fin.ext
  have ho := k0_off1_eq k
  match a with
  | ⟨0, _⟩ =>
    show (k0_off1 k) 0 + 1 * (y 0).val = 1024 * k.val + (y 0).val
    have h0 : k0_off1 k 0 = 1024 * k.val := by have := congrFun ho 0; simpa using this
    omega
  | ⟨1, _⟩ =>
    show (k0_off1 k) 1 + 1 * (y 1).val = (y 1).val
    have h1 : k0_off1 k 1 = 0 := by have := congrFun ho 1; simpa using this
    omega

section
/-- A load through the whole rectangle of a whole memref reads its contents. -/
theorem readAt_whole {S : Shape} {e : EltTy} (M : Memref sig .tc .vmem S e) (f : M.view.ty.Contents (Elt F))
    {off : Fin S.rank → Nat} (h : off = fun _ => 0) (inb : ∀ a, off a + S.size a ≤ S.size a) :
    View.readAt (Elt F) M.view (Rect.unit off S.size inb).toLoadRect f = M.view.read (Elt F) f := by
  rw [View.readAt_eq_ld, View.ld_unit_zero h]

/-- What a memref holds after a list of stores whose newest went through the whole rectangle: that store's payload. -/
theorem read_writes_newest {S : Shape} {e : EltTy} (M : Memref sig .tc .vmem S e) (f : M.view.ty.Contents (Elt F))
    {off : Fin S.rank → Nat} (h : off = fun _ => 0) (inb : ∀ a, off a + S.size a ≤ S.size a) (w : S.Idx → Elt F e)
    (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, by
    subst h; show y ∈ (Rect.whole S).set; rw [Rect.set_whole]; exact Finset.mem_univ y⟩), View.canon_cons_unit_zero h]
end

/-- What the accumulator holds after `k` trips of the gather loop, started from the zero array: `loopVal k`. -/
theorem loop_read (𝒱 : Variants) (c : Dev nD) (bd : Option 𝒱.V) (i : grid0.Coords) (arg2 : Memref sig .tc .vmem S1024x4 .i32) (harg2 : arg2.IsWhole) (arg3 : Memref sig .tc .vmem S8192x256 .bf16) (harg3 : arg3.IsWhole) (arg4 : Memref sig .tc .vmem S1x1x1 .f32) (harg4 : arg4.IsWhole) (arg5 : Memref sig .tc .vmem S1x1 .f32) (harg5 : arg5.IsWhole) (arg6 : Memref sig .tc .vmem S3072x256 .f32) (harg6 : arg6.IsWhole) (x0 : Vec F S1024x4 .i32) (x1 : Vec F S8192x256 .bf16)
    (k : ℕ) (hk : k ≤ k0_t1_loop.trips) :
    arg6.view.read (Elt F) (arg6.view.writes (Elt F) arg6.view.junk
      (pb_k0_t1 (F := F) 𝒱 c bd i arg2 harg2 arg3 harg3 arg4 harg4 arg5 harg5 arg6 harg6 x0 (harg3.unread x1)
          (arg6.view.writes (Elt F) arg6.view.junk [⟨Rect.unit ![0, 0] S3072x256.size inb_S3072x256_S3072x256_0_0, k0_pay6⟩]) k
        ++ [⟨Rect.unit ![0, 0] S3072x256.size inb_S3072x256_S3072x256_0_0, k0_pay6⟩]))
      = loopVal x0 x1 k := by
  induction k with
  | zero =>
    show arg6.view.read (Elt F) (arg6.view.writes (Elt F) arg6.view.junk ([] ++ [_])) = k0_pay6
    rw [List.nil_append]
    exact read_writes_newest arg6 _ hz2 _ _ []
  | succ k ih =>
    have hlt : k < k0_t1_loop.trips := hk
    have ih' := ih (Nat.le_of_lt hlt)
    rw [show k + 1 = (⟨k, hlt⟩ : Fin k0_t1_loop.trips).val + 1 from rfl, pb_k0_t1_succ, tripL_eq, List.append_assoc,
      List.singleton_append, read_writes_newest arg6 _ hz2]
    rw [chunk_read, readAt_whole arg6 _ hz2, ← View.writes_append, ih']
    show _ = loopVal x0 x1 (k + 1)
    rw [loopVal, dif_pos hlt]

theorem sout_B (c : Dev nD) (i : grid0.Coords) (arg2 : Memref sig .tc .vmem S1024x4 .i32) (harg2 : arg2.IsWhole) (arg3 : Memref sig .tc .vmem S8192x256 .bf16) (harg3 : arg3.IsWhole) (arg4 : Memref sig .tc .vmem S1x1x1 .f32) (harg4 : arg4.IsWhole) (arg5 : Memref sig .tc .vmem S1x1 .f32) (harg5 : arg5.IsWhole) (arg6 : Memref sig .tc .vmem S3072x256 .f32) (harg6 : arg6.IsWhole) (hc0 : ¬cond0_0 i) (hc1 : ¬cond0_1 i)
    (x0 : Vec F S1024x4 .i32) (x1 : Vec F S8192x256 .bf16) (xs0 : Vec F S1x1 .f32) :
    sout0_B_0 c i arg2 harg2 arg3 harg3 arg4 harg4 arg5 harg5 arg6 harg6 hc0 hc1 x0 x1 xs0 = stepVal x0 x1 xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero hz2]
  simp only [readAt_whole arg2 _ hz2, readAt_whole arg5 _ hz2, readAt_whole arg6 _ hz2, harg2.read_unread, harg5.read_unread]
  have hL := loop_read Variants.none c none i arg2 harg2 arg3 harg3 arg4 harg4 arg5 harg5 arg6 harg6 x0 x1 k0_t1_loop.trips le_rfl
  unfold stepVal
  rw [← hL]

theorem sout_C (c : Dev nD) (i : grid0.Coords) (arg2 : Memref sig .tc .vmem S1024x4 .i32) (harg2 : arg2.IsWhole) (arg3 : Memref sig .tc .vmem S8192x256 .bf16) (harg3 : arg3.IsWhole) (arg4 : Memref sig .tc .vmem S1x1x1 .f32) (harg4 : arg4.IsWhole) (arg5 : Memref sig .tc .vmem S1x1 .f32) (harg5 : arg5.IsWhole) (arg6 : Memref sig .tc .vmem S3072x256 .f32) (harg6 : arg6.IsWhole) (hc0 : ¬cond0_0 i) (hc1 : cond0_1 i)
    (x0 : Vec F S1024x4 .i32) (x1 : Vec F S8192x256 .bf16) (xs0 : Vec F S1x1 .f32) :
    sout0_C_0 c i arg2 harg2 arg3 harg3 arg4 harg4 arg5 harg5 arg6 harg6 hc0 hc1 x0 x1 xs0 = stepVal x0 x1 xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [readAt_whole arg2 _ hz2, readAt_whole arg5 _ hz2, readAt_whole arg6 _ hz2, harg2.read_unread, harg5.read_unread]
  have hL := loop_read Variants.none c none i arg2 harg2 arg3 harg3 arg4 harg4 arg5 harg5 arg6 harg6 x0 x1 k0_t1_loop.trips le_rfl
  unfold stepVal
  rw [← hL]

theorem out_C (c : Dev nD) (i : grid0.Coords) (arg2 : Memref sig .tc .vmem S1024x4 .i32) (harg2 : arg2.IsWhole) (arg3 : Memref sig .tc .vmem S8192x256 .bf16) (harg3 : arg3.IsWhole) (arg4 : Memref sig .tc .vmem S1x1x1 .f32) (harg4 : arg4.IsWhole) (arg5 : Memref sig .tc .vmem S1x1 .f32) (harg5 : arg5.IsWhole) (arg6 : Memref sig .tc .vmem S3072x256 .f32) (harg6 : arg6.IsWhole) (hc0 : ¬cond0_0 i) (hc1 : cond0_1 i)
    (x0 : Vec F S1024x4 .i32) (x1 : Vec F S8192x256 .bf16) (xs0 : Vec F S1x1 .f32) :
    out0_C_2 c i arg2 harg2 arg3 harg3 arg4 harg4 arg5 harg5 arg6 harg6 hc0 hc1 x0 x1 xs0 = k0_pay2 (stepVal x0 x1 xs0) := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero hz3, View.readCov_unit_zero _ hz2]
  simp only [readAt_whole arg2 _ hz2, readAt_whole arg5 _ hz2, readAt_whole arg6 _ hz2, harg2.read_unread, harg5.read_unread]
  have hL := loop_read Variants.none c none i arg2 harg2 arg3 harg3 arg4 harg4 arg5 harg5 arg6 harg6 x0 x1 k0_t1_loop.trips le_rfl
  unfold stepVal
  rw [← hL]

theorem sout_A (c : Dev nD) (i : grid0.Coords) (arg2 : Memref sig .tc .vmem S1024x4 .i32) (harg2 : arg2.IsWhole) (arg3 : Memref sig .tc .vmem S8192x256 .bf16) (harg3 : arg3.IsWhole) (arg4 : Memref sig .tc .vmem S1x1x1 .f32) (harg4 : arg4.IsWhole) (arg5 : Memref sig .tc .vmem S1x1 .f32) (harg5 : arg5.IsWhole) (arg6 : Memref sig .tc .vmem S3072x256 .f32) (harg6 : arg6.IsWhole) (hc0 : cond0_0 i) (hc1 : ¬cond0_1 i)
    (x0 : Vec F S1024x4 .i32) (x1 : Vec F S8192x256 .bf16) :
    sout0_A_0 c i arg2 harg2 arg3 harg3 arg4 harg4 arg5 harg5 arg6 harg6 hc0 hc1 x0 x1 = stepVal x0 x1 k0_pay3 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero hz2, View.readCov_unit_zero _ hz2]
  simp only [readAt_whole arg2 _ hz2, readAt_whole arg6 _ hz2, harg2.read_unread]
  have hL := loop_read Variants.none c none i arg2 harg2 arg3 harg3 arg4 harg4 arg5 harg5 arg6 harg6 x0 x1 k0_t1_loop.trips le_rfl
  unfold stepVal
  rw [← hL]

end Cert.KernelIdeal.Pieces

end
-- ==== Proof.KRun.lean ====
/-
  The kernel's run over its 2 × 98 grid points, read as values.

  The running sum `accAfter` restarts at the first point of each core's 98 (one `stepVal` over the constant
  block `k0_pay3`, the broadcast of +0.0) and is carried, one `stepVal` further, at every other point; the scratch the frame carries from point to point holds exactly this
  (`outs_acc`, by induction on the point, one case per control case of the body). The result array [2,1,1] is
  written only at each core's last point, 98·cc + 97, whose block is entry (cc, 0, 0): so after the run entry
  (cc, 0, 0) holds the running sum after that point (`final`).
-/
import proofs.«404929_j80427557585292_3_alg».proof.Proof.Pieces
import Idealize.ShloMosaic.Lib.Pipeline.Value

noncomputable section
namespace Cert.KernelIdeal.KRun
open Idealize.ShloMosaic Idealize.ShloMosaic.ValueIdx Idealize.SL.Sem Cert.KernelIdeal Cert.KernelIdeal.Gen Cert.KernelIdeal.KStep
variable {F : FTy → Type} [FloatOps F]
variable (m : (ℓ : Loc nD τ sig) → Buf (Elt F) ℓ)

/-- The running sum after point `n`: restarted from zero at the first point of each core's 98, carried otherwise. -/
def accAfter (c : Dev nD) : (n : ℕ) → n < cfg0.N → Vec F S1x1 .f32
  | 0, hn => stepVal (iblk m c 0 ⟨0, hn⟩) (iblk m c 1 ⟨0, hn⟩) k0_pay3
  | n + 1, hn =>
    if (n + 1) % 98 = 0 then stepVal (iblk m c 0 ⟨n + 1, hn⟩) (iblk m c 1 ⟨n + 1, hn⟩) k0_pay3
    else stepVal (iblk m c 0 ⟨n + 1, hn⟩) (iblk m c 1 ⟨n + 1, hn⟩) (accAfter c n (Nat.lt_of_succ_lt hn))

/-- What core `cc`'s last point writes back. -/
def outAt (c : Dev nD) (cc : Fin 2) : Vec F S1x1x1 .f32 :=
  k0_pay2 (accAfter m c (98 * cc.val + 97) (by
    have h : cfg0.N = 196 := N_0
    have := cc.isLt
    rw [h]; omega))

/-- The kernel's result array. -/
def outArr (c : Dev nD) : Vec F S2x1x1 .f32 :=
  fun j => outAt m c (⟨(j 0).val, (j 0).isLt⟩ : Fin 2) (ix3 (0 : Fin 1) (0 : Fin 1) (0 : Fin 1))

/-- At the first point of a core's 98 the running sum restarts. -/
theorem accAfter_restart (c : Dev nD) (t : Fin cfg0.N) (h0 : t.val % 98 = 0) :
    accAfter m c t.val t.isLt = stepVal (iblk m c 0 t) (iblk m c 1 t) k0_pay3 := by
  obtain ⟨n, hn⟩ := t
  cases n with
  | zero => rfl
  | succ n => exact if_pos h0

/-- At every other point the running sum is carried from the point before. -/
theorem accAfter_carry (c : Dev nD) (t : Fin cfg0.N) (h0 : ¬t.val % 98 = 0) :
    accAfter m c t.val t.isLt = stepVal (iblk m c 0 t) (iblk m c 1 t)
      (accAfter m c (t.val - 1) (Nat.lt_of_le_of_lt (Nat.sub_le _ _) t.isLt)) := by
  obtain ⟨n, hn⟩ := t
  cases n with
  | zero => exact absurd (Nat.zero_mod _) h0
  | succ n => exact if_neg h0

/-- The carried scratch after point `n` is the running sum `accAfter`. -/
theorem outs_acc_nat (c : Dev nD) : ∀ (n : ℕ) (hn : n < cfg0.N), (outsAt0 m c n hn).2 = accAfter m c n hn := by
  intro n
  induction n with
  | zero =>
    intro hn
    have h0 : (⟨0, hn⟩ : Fin cfg0.N).val % 98 = 0 := Nat.zero_mod _
    have h1 : ¬(⟨0, hn⟩ : Fin cfg0.N).val % 98 = 97 := by
      show ¬(0 % 98 = 97); omega
    rw [outsAt0_A m c ⟨0, hn⟩ h0 h1]; dsimp only
    rw [Pieces.sout_A]
    exact (accAfter_restart m c ⟨0, hn⟩ h0).symm
  | succ n ih =>
    intro hn
    have hN : n + 1 < 196 := lt_of_lt_of_eq hn (show cfg0.N = 196 from N_0)
    by_cases h0 : (⟨n + 1, hn⟩ : Fin cfg0.N).val % 98 = 0
    · have h1 : ¬(⟨n + 1, hn⟩ : Fin cfg0.N).val % 98 = 97 := by
        intro h; dsimp only at h0 h; omega
      rw [outsAt0_A m c ⟨n + 1, hn⟩ h0 h1]; dsimp only
      rw [Pieces.sout_A]
      exact (accAfter_restart m c ⟨n + 1, hn⟩ h0).symm
    · by_cases h1 : (⟨n + 1, hn⟩ : Fin cfg0.N).val % 98 = 97
      · rw [outsAt0_C m c ⟨n + 1, hn⟩ h0 h1]; dsimp only
        rw [Pieces.sout_C]
        refine Eq.trans ?_ (accAfter_carry m c ⟨n + 1, hn⟩ h0).symm
        exact congrArg (stepVal (iblk m c 0 ⟨n + 1, hn⟩) (iblk m c 1 ⟨n + 1, hn⟩)) (ih (Nat.lt_of_succ_lt hn))
      · rw [outsAt0_B m c ⟨n + 1, hn⟩ h0 h1]; dsimp only
        rw [Pieces.sout_B]
        refine Eq.trans ?_ (accAfter_carry m c ⟨n + 1, hn⟩ h0).symm
        exact congrArg (stepVal (iblk m c 0 ⟨n + 1, hn⟩) (iblk m c 1 ⟨n + 1, hn⟩)) (ih (Nat.lt_of_succ_lt hn))

theorem outs_acc (c : Dev nD) (t : Fin cfg0.N) : (outsAt0 m c t.val t.isLt).2 = accAfter m c t.val t.isLt :=
  outs_acc_nat m c t.val t.isLt

/-- The running sum does not depend on how its point is written. -/
theorem accAfter_congr (c : Dev nD) {n n' : ℕ} (e : n = n') (hn : n < cfg0.N) (hn' : n' < cfg0.N) :
    accAfter m c n hn = accAfter m c n' hn' := by
  subst e; rfl

/-- The block of the result array that point `t` writes: block `t / 98` on the core axis, the one block of the others. -/
theorem idx_out : ∀ t : Fin cfg0.N, win0_2.index t (0 : Fin 3) = t.val / 98
    ∧ win0_2.index t (1 : Fin 3) = 0 ∧ win0_2.index t (2 : Fin 3) = 0 :=
  (by decide +kernel : ∀ t : Fin grid0.N, win0_2.index t (0 : Fin 3) = t.val / 98
    ∧ win0_2.index t (1 : Fin 3) = 0 ∧ win0_2.index t (2 : Fin 3) = 0)

/-- What a core's last point writes back is its block of `outArr`. -/
theorem flushed_eq (c : Dev nD) (t : Fin cfg0.N) (hf : (cfg0.win 2).flush t = true) :
    (dats m 0 c).flushed 2 t = ((cfg0.win 2).blk t).view.read (Elt F) (outArr m c) := by
  have h97 : t.val % 98 = 97 := (flush0_2 t).mp hf
  have h0 : ¬t.val % 98 = 0 := by omega
  show (cfg0.win 2).cut (grid0.coords t) ((dats m 0 c).after 2 t) = _
  rw [after0_2, outsAt0_C m c t h0 h97]; dsimp only
  rw [Pieces.out_C]
  rw [outs_acc_nat m c (t.val - 1) (Nat.lt_of_le_of_lt (Nat.sub_le _ _) t.isLt)]
  rw [← accAfter_carry m c t h0]
  obtain ⟨e0, e1, e2⟩ := idx_out t
  funext y
  rw [View.read_apply]
  have hy0 : (y 0).val < 1 := (y 0).isLt
  have hy1 : (y 1).val < 1 := (y 1).isLt
  have hy2 : (y 2).val < 1 := (y 2).isLt
  have hj : ((((cfg0.win 2).blk t).view.emb y) 0).val = t.val / 98 := by
    show win0_2.index t (0 : Fin 3) * 1 + 1 * (y 0).val = _
    omega
  have hp : (cfg0.win 2).xinj (grid0.coords t) y = ix3 (0 : Fin 1) (0 : Fin 1) (0 : Fin 1) := by
    funext a; apply Fin.ext
    match a with
    | ⟨0, _⟩ => show (y 0).val = 0; omega
    | ⟨1, _⟩ => show (y 1).val = 0; omega
    | ⟨2, _⟩ => show (y 2).val = 0; omega
  show k0_pay2 (accAfter m c t.val t.isLt) ((cfg0.win 2).xinj (grid0.coords t) y)
    = outArr m c (((cfg0.win 2).blk t).view.emb y)
  rw [hp]
  exact congrFun (congrArg k0_pay2 (accAfter_congr m c (by rw [hj]; omega) t.isLt _)) (ix3 (0 : Fin 1) (0 : Fin 1) (0 : Fin 1))

theorem final (c : Dev nD) : ((dats m 0 c).arrAt 2 cfg0.N : Vec F S2x1x1 .f32) = outArr m c :=
  (dats m 0 c).arrAt_eq_of_cover 2 (outArr m c) (flushed_eq m c) fun i => by
    have hi0 : (i 0).val < 2 := (i 0).isLt
    have hi1 : (i 1).val < 1 := (i 1).isLt
    have hi2 : (i 2).val < 1 := (i 2).isLt
    have hN : cfg0.N = 196 := N_0
    -- entry (cc, 0, 0) lies in the block that core cc's last point, 98·cc + 97, writes
    obtain ⟨t, ht⟩ : ∃ t : Fin cfg0.N, t.val = 98 * (i 0).val + 97 := ⟨⟨98 * (i 0).val + 97, by rw [hN]; omega⟩, rfl⟩
    obtain ⟨e0, e1, e2⟩ := idx_out t
    refine ⟨t, (flush0_2 t).mpr (by omega), ?_⟩
    show i ∈ ((View.whole main_v12).slice (win0_2.rect t)).set
    rw [View.set_slice_whole, Rect.mem_set_unit]
    intro a
    match a with
    | ⟨0, _⟩ =>
      show win0_2.index t (0 : Fin 3) * 1 ≤ (i 0).val ∧ (i 0).val < win0_2.index t (0 : Fin 3) * 1 + 1
      omega
    | ⟨1, _⟩ =>
      show win0_2.index t (1 : Fin 3) * 1 ≤ (i 1).val ∧ (i 1).val < win0_2.index t (1 : Fin 3) * 1 + 1
      omega
    | ⟨2, _⟩ =>
      show win0_2.index t (2 : Fin 3) * 1 ≤ (i 2).val ∧ (i 2).val < win0_2.index t (2 : Fin 3) * 1 + 1
      omega

end Cert.KernelIdeal.KRun
end
-- ==== Proof.HostPre.lean ====
/-
What the pipelined region finds when it is entered, read entry by entry.

Before the region the host forms two arrays. The stacked table (8192 × 256) is the table X (8192 × 128) beside its
remainder after a change of format and back; at the exact instance a change of format is the identity, so the left
half is X and the right half is X − X (kept in that form). The combined triplets (200704 × 4) are the 200000 × 3
triplets padded below by 704 rows of the zero word, beside a validity column: the signed comparison of the row
number with 200000, widened to a word, so 1 on the rows of real triplets and 0 on the padding rows.

The region's two input windows read these arrays in blocks: window 0 at grid point t holds rows 1024·t … 1024·t + 1023
of the combined triplets (its block index is (t, 0)), window 1 holds the whole stacked table at every point (its
block index is (0, 0)).
-/
import proofs.«404929_j80427557585292_3_alg».proof.Proof.Gen.KernelIdeal.Frame
import Idealize.ShloMosaic.Lib.Pipeline.Value
import Idealize.ShloMosaic.Lib.StableHlo.Run
import Idealize.ShloMosaic.Lib.StableHlo.Predicate
import Idealize.ShloMosaic.Lib.KernelVsHost
import Idealize.ShloMosaic.Lib.ValueIdx

noncomputable section
namespace Cert.KernelIdeal.HostPre
open Idealize.ShloMosaic Idealize.ShloMosaic.ValueIdx Idealize.SL.Sem Cert.KernelIdeal Cert.KernelIdeal.Gen

variable (m : (ℓ : Loc nD τ sig) → Buf (Elt Ideal) ℓ)

/-- The table of rows as launched. -/
abbrev Xarg (c : Dev nD) : S8192x128.Idx → EReal := m ((c.tc : Thread nD τ).loc main_arg0)
/-- The triplets as launched. -/
abbrev Targ (c : Dev nD) : S200000x3.Idx → BitVec 32 := m ((c.tc : Thread nD τ).loc main_arg1)
/-- The stacked table the region finds. -/
abbrev xstk (c : Dev nD) : S8192x256.Idx → EReal := V m c main_v4
/-- The padded triplets with their validity column, as the region finds them. -/
abbrev comb (c : Dev nD) : S200704x4.Idx → BitVec 32 := V m c main_v11

/-! ## The two arrays as terms in the launched inputs -/

/-- The stacked table is the table after a narrowing of format, beside the narrowed difference of the table and
    its narrowed-then-widened self, along the column axis. -/
theorem xstk_term (c : Dev nD) : (V m c main_v4 : S8192x256.Idx → EReal) =
    concatenate S8192x256 1
      [⟨S8192x128, truncf (F := Ideal) .bf16 (Xarg m c : FVec Ideal S8192x128 .f32) bitsLt_bf16_f32⟩,
       ⟨S8192x128, truncf (F := Ideal) .bf16 (subf (Xarg m c : FVec Ideal S8192x128 .f32)
          (extf .f32 (truncf (F := Ideal) .bf16 (Xarg m c : FVec Ideal S8192x128 .f32) bitsLt_bf16_f32)
            bitsLt_bf16_f32)) bitsLt_bf16_f32⟩]
      concatenates_S8192x128_S8192x128_S8192x256_d1 := by
  dsimp only [Gen.V, Gen.V0]
  simp only [hostOps0, hostOps0_1, hostOps0_2, List.flatten_cons, List.flatten_nil, List.append_nil,
    List.cons_append, List.nil_append]
  after_results

/-- The combined triplets are the triplets padded by 704 rows of the zero word, beside the column of widened
    comparisons "row number < 200000", along the column axis. -/
theorem comb_term (c : Dev nD) : (V m c main_v11 : S200704x4.Idx → BitVec 32) =
    concatenate S200704x4 1
      [⟨S200704x3, pad S200704x3 ![0, 0] ![704, 0] ![0, 0] (Targ m c : IVec S200000x3 32) (constantI S_ 32 0#32)
          pads_S200000x3_S200704x3_07040_000 h_S_⟩,
       ⟨S200704x1, broadcastInDim S200704x1 ![0] bcast_S200704_S200704x1_0
          (extui 32 (cmpi .slt (iotaInDim S200704 32 0)
            (broadcastInDim S200704 ![] bcast_S_S200704 (constantI S_ 32 200000#32))) natLt_1_32)⟩]
      concatenates_S200704x3_S200704x1_S200704x4_d1 := by
  dsimp only [Gen.V, Gen.V0]
  simp only [hostOps0, hostOps0_1, hostOps0_2, List.flatten_cons, List.flatten_nil, List.append_nil,
    List.cons_append, List.nil_append]
  after_results
  rfl

/-! ## The stacked table at an entry -/

/-- Columns 0 … 127 of the stacked table are the table: a column below 128 falls in the first piece, and the
    narrowing is the identity on extended reals. -/
theorem xstk_lo (c : Dev nD) (n : Fin 8192) (d : Fin 128) :
    xstk m c (ix2 n (⟨d.val, by have := d.isLt; omega⟩ : Fin 256)) = Xarg m c (ix2 n d) := by
  show (V m c main_v4 : S8192x256.Idx → EReal) _ = _
  rw [xstk_term]
  refine (concatenate_pair_apply_left (t := S8192x256) (s₁ := S8192x128) (s₂ := S8192x128) (1 : Fin 2) _ _
    concatenates_S8192x128_S8192x128_S8192x256_d1 (ix2 n (⟨d.val, by have := d.isLt; omega⟩ : Fin 256)) rfl (ix2 n d)
    (fun b => match b with | ⟨0, _⟩ => rfl | ⟨1, _⟩ => rfl)).trans ?_
  rfl

/-- Columns 128 … 255 of the stacked table are the remainder x − x, entry by entry: column 128 + d falls in the
    second piece at column d, and both changes of format are the identity. -/
theorem xstk_hi (c : Dev nD) (n : Fin 8192) (d : Fin 128) :
    xstk m c (ix2 n (⟨128 + d.val, by have := d.isLt; omega⟩ : Fin 256)) = Xarg m c (ix2 n d) - Xarg m c (ix2 n d) := by
  show (V m c main_v4 : S8192x256.Idx → EReal) _ = _
  rw [xstk_term]
  refine (concatenate_pair_apply_right (t := S8192x256) (s₁ := S8192x128) (s₂ := S8192x128) (1 : Fin 2) _ _
    concatenates_S8192x128_S8192x128_S8192x256_d1 (ix2 n (⟨128 + d.val, by have := d.isLt; omega⟩ : Fin 256)) rfl rfl
    (ix2 n d) (fun b => match b with | ⟨0, _⟩ => fun _ => rfl | ⟨1, _⟩ => fun h => absurd rfl h) ?_).trans ?_
  · show d.val + 128 = 128 + d.val
    omega
  · rfl

/-! ## The combined triplets at an entry -/

/-- The validity word of row `t`: for a row number below 2³¹ the signed comparison with 200000 is the comparison of
    the numbers, and the one-bit answer widens to the word 1 or 0. -/
theorem valid_word (t : Nat) (ht : t < 200704) :
    (IntOp.cmpi .slt (BitVec.ofNat 32 t) 200000#32).setWidth 32 = if t < 200000 then 1#32 else 0#32 := by
  have hiff := StableHlo.Predicate.slt_iff_toNat (a := BitVec.ofNat 32 t) (b := 200000#32)
    (by rw [BitVec.toNat_ofNat]; omega) (by decide)
  have hn : (BitVec.ofNat 32 t).toNat = t := by rw [BitVec.toNat_ofNat]; omega
  rw [hn, show (200000#32).toNat = 200000 from rfl] at hiff
  by_cases h : t < 200000
  · rw [if_pos h, hiff.mpr h]; rfl
  · rw [if_neg h, eq_zero_of_ne_one (fun e => h (hiff.mp e))]; rfl

/-- Columns 0 … 2 of the combined triplets: a real row holds its triplet's word (the row lies inside the padded
    operand, at the same coordinates), a padding row the zero word (its row number is past the operand's rows). -/
theorem comb_idx (c : Dev nD) (t : Fin 200704) (col : Fin 3) :
    comb m c (ix2 t (⟨col.val, by have := col.isLt; omega⟩ : Fin 4))
      = if h : t.val < 200000 then Targ m c (ix2 (⟨t.val, h⟩ : Fin 200000) col) else 0#32 := by
  show (V m c main_v11 : S200704x4.Idx → BitVec 32) _ = _
  rw [comb_term]
  refine (concatenate_pair_apply_left (t := S200704x4) (s₁ := S200704x3) (s₂ := S200704x1) (1 : Fin 2) _ _
    concatenates_S200704x3_S200704x1_S200704x4_d1 (ix2 t (⟨col.val, by have := col.isLt; omega⟩ : Fin 4)) rfl (ix2 t col)
    (fun b => match b with | ⟨0, _⟩ => rfl | ⟨1, _⟩ => rfl)).trans ?_
  by_cases h : t.val < 200000
  · rw [dif_pos h]
    exact pad_apply_of_inside _ _ _ _ _ _ _ (ix2 t col) (ix2 (⟨t.val, h⟩ : Fin 200000) col)
      (fun a => match a with
        | ⟨0, _⟩ => by show t.val = 0 + t.val * (0 + 1); omega
        | ⟨1, _⟩ => by show col.val = 0 + col.val * (0 + 1); omega)
  · rw [dif_neg h]
    refine (pad_apply_of_not_inside _ _ _ _ _ _ _ (ix2 t col) (0 : Fin 2) ?_).trans rfl
    show ¬(0 ≤ t.val ∧ (t.val - 0) % (0 + 1) = 0 ∧ (t.val - 0) / (0 + 1) < 200000)
    intro hh
    have h3 := hh.2.2
    simp only [Nat.sub_zero, Nat.zero_add, Nat.div_one] at h3
    exact h h3

/-- Column 3 of the combined triplets is the validity word: it falls in the second piece at column 0, which
    repeats the vector of widened comparisons of the row number with the constant 200000. -/
theorem comb_valid (c : Dev nD) (t : Fin 200704) :
    comb m c (ix2 t (3 : Fin 4)) = if t.val < 200000 then 1#32 else 0#32 := by
  show (V m c main_v11 : S200704x4.Idx → BitVec 32) _ = _
  rw [comb_term]
  refine (concatenate_pair_apply_right (t := S200704x4) (s₁ := S200704x3) (s₂ := S200704x1) (1 : Fin 2) _ _
    concatenates_S200704x3_S200704x1_S200704x4_d1 (ix2 t (3 : Fin 4)) rfl rfl (ix2 t (0 : Fin 1))
    (fun b => match b with | ⟨0, _⟩ => fun _ => rfl | ⟨1, _⟩ => fun h => absurd rfl h) rfl).trans ?_
  refine (broadcastInDim_apply _ _ _ (ix2 t (0 : Fin 1)) (ix1 t) (fun a => match a with | ⟨0, _⟩ => rfl)).trans ?_
  refine Eq.trans ?_ (valid_word t.val t.isLt)
  show ((IntOp.cmpi .slt (BitVec.ofNat 32 t.val)
    (broadcastInDim S200704 ![] bcast_S_S200704 (constantI S_ 32 200000#32) (ix1 t))).setWidth 32) = _
  rw [broadcastInDim_apply (![] : Fin 0 → Fin 1) bcast_S_S200704 (constantI S_ 32 200000#32) (ix1 t) ix0
    (fun a => a.elim0)]
  rfl

/-! ## The two input windows' blocks -/

/-- Window 0's block index at grid point `t` is (t, 0), decided once over the 196 points. -/
theorem win0_index : ∀ t : Fin grid0.N, win0_0.index t (0 : Fin 2) = t.val ∧ win0_0.index t (1 : Fin 2) = 0 := by
  decide +kernel

/-- Window 1's block index is (0, 0) at every grid point. -/
theorem win1_index : ∀ t : Fin grid0.N, win0_1.index t (0 : Fin 2) = 0 ∧ win0_1.index t (1 : Fin 2) = 0 := by
  decide +kernel

/-- Window 0's block at point `t` is rows 1024·t … of the combined triplets: a block's entry sits in the array, on
    each axis, at the block index times the block's size plus its own coordinate. -/
theorem iblk0_apply (c : Dev nD) (t : Fin cfg0.N) (r : Fin 1024) (col : Fin 4) :
    (iblk m c 0 t : S1024x4.Idx → BitVec 32) (ix2 r col)
      = comb m c (ix2 (⟨1024 * t.val + r.val, by
          have hN : t.val < 196 := lt_of_lt_of_eq t.isLt (show cfg0.N = 196 from N_0)
          have := r.isLt; omega⟩ : Fin 200704) col) := by
  have hi := win0_index t
  unfold iblk
  rw [View.read_apply]
  show V m c main_v11 _ = V m c main_v11 _
  congr 1
  funext a
  apply Fin.ext
  match a with
  | ⟨0, _⟩ => show win0_0.index t 0 * 1024 + 1 * r.val = 1024 * t.val + r.val; rw [hi.1]; omega
  | ⟨1, _⟩ => show win0_0.index t 1 * 4 + 1 * col.val = col.val; rw [hi.2]; omega

/-- Window 1's block is the whole stacked table at every point: with block index (0, 0) and a block of the
    array's own size, every entry sits at its own coordinates. -/
theorem iblk1_eq (c : Dev nD) (t : Fin cfg0.N) : (iblk m c 1 t : S8192x256.Idx → EReal) = xstk m c := by
  have hi := win1_index t
  funext y
  unfold iblk
  rw [View.read_apply]
  show V m c main_v4 _ = V m c main_v4 y
  congr 1
  funext a
  apply Fin.ext
  match a with
  | ⟨0, _⟩ => show win0_1.index t 0 * 8192 + 1 * (y 0).val = (y 0).val; rw [hi.1]; omega
  | ⟨1, _⟩ => show win0_1.index t 1 * 256 + 1 * (y 1).val = (y 1).val; rw [hi.2]; omega

end Cert.KernelIdeal.HostPre
end
-- ==== Proof.Spec.lean ====
/-
  What both programs compute, as one function of the argument arrays over the extended reals.

  For a table `X` of 8192 rows of 128 numbers and a list of 200000 triplets `(i, j, k)` of row numbers:
  the squared distance of two rows, clamped at zero, is `dist a b = max (‖a‖² + ‖b‖² − 2·⟨a, b⟩) 0`;
  a triplet contributes `softplus (dist i j − dist i k)` with `softplus d = max d 0 + log (1 + e^(−|d|))`;
  the result is the mean of the contributions, the sum divided by the literal `200000`.
  The literals `2.0` and `200000.0` are kept as the words both programs carry: they are never evaluated.
-/
import Idealize.ShloMosaic.PureOps.Ideal
import Idealize.ShloMosaic.Lib.ValueIdx

noncomputable section

namespace Cert.Spec

open Idealize.ShloMosaic Idealize.ShloMosaic.ValueIdx

/-- The table of rows. -/
abbrev SX : Shape := ⟨2, ![8192, 128]⟩
/-- The triplets. -/
abbrev ST : Shape := ⟨2, ![200000, 3]⟩

/-- The inner product of rows `a` and `b`. -/
def rowdot (X : SX.Idx → EReal) (a b : Fin 8192) : EReal := ∑ d : Fin 128, X (ix2 a d) * X (ix2 b d)

/-- The squared distance of rows `a` and `b` from their norms and inner product, clamped at zero. -/
def dist (X : SX.Idx → EReal) (a b : Fin 8192) : EReal :=
  max ((rowdot X a a + rowdot X b b) - Ideal.ofBits .f32 0x40000000#32 * rowdot X a b) 0

/-- `log (1 + e^d)` in its overflow-free form. -/
def softplus (d : EReal) : EReal := max d 0 + Ideal.log1p (Ideal.exp (-(max d (-d))))

/-- The row a word of the triplet table names (the word itself when it is below 8192). -/
def rowOf (w : BitVec 32) : Fin 8192 := ⟨w.toNat % 8192, Nat.mod_lt _ (by norm_num)⟩

/-- One triplet's contribution. -/
def term (X : SX.Idx → EReal) (wi wj wk : BitVec 32) : EReal :=
  softplus (dist X (rowOf wi) (rowOf wj) - dist X (rowOf wi) (rowOf wk))

/-- The sum of all contributions. -/
def total (X : SX.Idx → EReal) (Tr : ST.Idx → BitVec 32) : EReal :=
  ∑ t : Fin 200000, term X (Tr (ix2 t (0 : Fin 3))) (Tr (ix2 t (1 : Fin 3))) (Tr (ix2 t (2 : Fin 3)))

/-- Their mean. -/
def loss (X : SX.Idx → EReal) (Tr : ST.Idx → BitVec 32) : EReal :=
  Ideal.div (total X Tr) (Ideal.ofBits .f32 0x48435000#32)

end Cert.Spec

end
-- ==== Proof.Gather.lean ====
/-
  The gather loop of one grid point, read at an entry.

  The loop runs over eight chunks of 1024 rows of the stacked table. Trip `k` adds to the accumulator the product of a
  one-hot matrix with the chunk's rows: entry `(ρ, n)` of the matrix is one when the index word at stacked row `ρ`
  equals `n + 1024·k` as a 32-bit word, and zero otherwise. A word below 8192 equals `n + 1024·k` for exactly one pair
  `(k, n)`, namely `k = w / 1024` and `n = w % 1024`; since `0·x = 0` and `1·x = x` over the extended reals, the sum over
  `n` has at most one nonzero term, and the eight accumulations add seven zeros to the one value found. So after the
  eight chunks entry `(ρ, e)` of the accumulator is entry `(w, e)` of the stacked table, `w` the index word at stacked
  row `ρ` (`loopVal_apply`), by induction on the number of chunks done (`loopVal_inv`).
-/
import proofs.«404929_j80427557585292_3_alg».proof.Proof.KStep
import proofs.«404929_j80427557585292_3_alg».proof.Proof.Spec
import Idealize.ShloMosaic.PureOps.Ideal.Laws
import Idealize.ShloMosaic.Lib.Pipeline.Value

noncomputable section
namespace Cert.KernelIdeal.Gather
open Idealize.ShloMosaic Idealize.ShloMosaic.ValueIdx Cert.KernelIdeal Cert.KernelIdeal.Gen Cert.KernelIdeal.KStep

/-- The loop makes exactly eight trips. -/
theorem trips_eq : k0_t1_loop.trips = 8 := by decide

/-- The accumulator the loop starts from is the zero array. -/
theorem pay6_apply (j : S3072x256.Idx) : (k0_pay6 (F := Ideal)) j = 0 := by
  unfold k0_pay6
  rw [shapeCast_self]
  exact Ideal.ofBits_zero_f32

/-- Column `c` of the block, as a one-column slice, read at row `r`. -/
theorem col_apply {F : FTy → Type} [FloatOps F] (x0 : Vec F S1024x4 .i32) (c : Fin 4) (h : S1024x4.Slices ![0, c.val] S1024x1)
    (r : Fin 1024) :
    extractStridedSlice S1024x1 ![0, c.val] (k0_pay4 x0) h (ix2 r (0 : Fin 1)) = x0 (ix2 r c) := by
  have e := extractStridedSlice_apply (α := BitVec 32) (s := S1024x4) (t := S1024x1) ![0, c.val] (k0_pay4 x0) h (ix2 r (0 : Fin 1)) (ix2 r c)
    (fun a => by
      match a with
      | ⟨0, _⟩ => show r.val = 0 + r.val; omega
      | ⟨1, _⟩ => show c.val = c.val + 0; omega)
  refine e.trans ?_
  unfold k0_pay4
  rw [shapeCast_self]

/-- The three index columns of the block, as one-column slices. -/
abbrev idxPieces {F : FTy → Type} [FloatOps F] (x0 : Vec F S1024x4 .i32) : List ((s : Shape) × (s.Idx → BitVec 32)) :=
  [⟨S1024x1, extractStridedSlice S1024x1 ![0, 0] (k0_pay4 x0) slices_S1024x4_o0_0_S1024x1⟩,
   ⟨S1024x1, extractStridedSlice S1024x1 ![0, 1] (k0_pay4 x0) slices_S1024x4_o0_1_S1024x1⟩,
   ⟨S1024x1, extractStridedSlice S1024x1 ![0, 2] (k0_pay4 x0) slices_S1024x4_o0_2_S1024x1⟩]

/-- The three index columns laid one under another. -/
def idxCol {F : FTy → Type} [FloatOps F] (x0 : Vec F S1024x4 .i32) : IVec S3072x1 32 :=
  concatenate S3072x1 0 (idxPieces x0) concatenates_S1024x1_S1024x1_S1024x1_S3072x1_d0

/-- Stacked row `ρ` of the index column is column `ρ / 1024` of triplet `ρ % 1024`. -/
theorem idxCol_apply {F : FTy → Type} [FloatOps F] (x0 : Vec F S1024x4 .i32) (ρ : Fin 3072) :
    idxCol x0 (ix2 ρ (0 : Fin 1)) = idxStack x0 ρ := by
  have hρ := ρ.isLt
  have hr : ρ.val % 1024 < 1024 := Nat.mod_lt _ (by norm_num)
  unfold idxCol idxStack
  have hcase : ρ.val / 1024 = 0 ∨ ρ.val / 1024 = 1 ∨ ρ.val / 1024 = 2 := by omega
  rcases hcase with hc | hc | hc
  · refine (concatenate_apply_piece (α := BitVec 32) (t := S3072x1) 0 (idxPieces x0) concatenates_S1024x1_S1024x1_S1024x1_S3072x1_d0 (ix2 ρ (0 : Fin 1))
      0 (Nat.zero_lt_succ _) S1024x1 _ rfl rfl 0 rfl (ix2 (⟨ρ.val % 1024, hr⟩ : Fin 1024) (0 : Fin 1)) (fun b hb => ?_) ?_).trans ?_
    · match b with
      | ⟨0, _⟩ => exact absurd rfl hb
      | ⟨1, _⟩ => rfl
    · show 0 + ρ.val % 1024 = ρ.val; omega
    · refine (col_apply x0 (0 : Fin 4) _ _).trans ?_
      exact congrArg x0 (congrArg (ix2 _) (Fin.ext (by show 0 = ρ.val / 1024; omega)))
  · refine (concatenate_apply_piece (α := BitVec 32) (t := S3072x1) 0 (idxPieces x0) concatenates_S1024x1_S1024x1_S1024x1_S3072x1_d0 (ix2 ρ (0 : Fin 1))
      1 (Nat.succ_lt_succ (Nat.zero_lt_succ _)) S1024x1 _ rfl rfl 1024 rfl (ix2 (⟨ρ.val % 1024, hr⟩ : Fin 1024) (0 : Fin 1)) (fun b hb => ?_) ?_).trans ?_
    · match b with
      | ⟨0, _⟩ => exact absurd rfl hb
      | ⟨1, _⟩ => rfl
    · show 1024 + ρ.val % 1024 = ρ.val; omega
    · refine (col_apply x0 (1 : Fin 4) _ _).trans ?_
      exact congrArg x0 (congrArg (ix2 _) (Fin.ext (by show 1 = ρ.val / 1024; omega)))
  · refine (concatenate_apply_piece (α := BitVec 32) (t := S3072x1) 0 (idxPieces x0) concatenates_S1024x1_S1024x1_S1024x1_S3072x1_d0 (ix2 ρ (0 : Fin 1))
      2 (Nat.succ_lt_succ (Nat.succ_lt_succ (Nat.zero_lt_succ _))) S1024x1 _ rfl rfl 2048 rfl (ix2 (⟨ρ.val % 1024, hr⟩ : Fin 1024) (0 : Fin 1)) (fun b hb => ?_) ?_).trans ?_
    · match b with
      | ⟨0, _⟩ => exact absurd rfl hb
      | ⟨1, _⟩ => rfl
    · show 2048 + ρ.val % 1024 = ρ.val; omega
    · refine (col_apply x0 (2 : Fin 4) _ _).trans ?_
      exact congrArg x0 (congrArg (ix2 _) (Fin.ext (by show 2 = ρ.val / 1024; omega)))

/-- Whether two words are equal, as the float the kernel makes of the comparison: one or zero. -/
theorem hot_eq (a b : BitVec 32) :
    FloatOps.sitofp (F := Ideal) .f32 ((IntOp.cmpi .eq a b).setWidth 32) = if a = b then (1 : EReal) else 0 := by
  by_cases h : a = b
  · rw [if_pos h]
    subst h
    show (((BitVec.setWidth 32 (BitVec.ofBool (a == a))).toInt : ℝ) : EReal) = 1
    rw [beq_self_eq_true]
    show ((((1#32 : BitVec 32)).toInt : ℝ) : EReal) = 1
    norm_num
  · rw [if_neg h]
    show (((BitVec.setWidth 32 (BitVec.ofBool (a == b))).toInt : ℝ) : EReal) = 0
    rw [beq_eq_false_iff_ne.2 h]
    show ((((0#32 : BitVec 32)).toInt : ℝ) : EReal) = 0
    norm_num

/-- The word the comparison of chunk `k` holds at lane `n`: `n + 1024·k`. -/
def laneWord (k : Nat) (n : Fin 1024) : BitVec 32 :=
  IntOp.addi (BitVec.ofNat 32 (0 * 1024 + n.val)) (Scalar.muli (Scf.iv 0#32 1#32 k) 1024#32)

theorem laneWord_toNat (k : Nat) (hk : k < 8) (n : Fin 1024) : (laneWord k n).toNat = n.val + 1024 * k := by
  have hn := n.isLt
  unfold laneWord IntOp.addi Scalar.muli IntOp.muli Scf.iv
  simp only [BitVec.toNat_add, BitVec.toNat_mul, BitVec.toNat_ofNat]
  omega

theorem lhs_mm_0 (i : S3072x256.Idx) (q : dot_S3072x1024_S1024x256_S3072x256_1_0_0_1_n_n.contr.Idx) :
    (dot_S3072x1024_S1024x256_S3072x256_1_0_0_1_n_n.lhsIdx i q 0).val = (i 0).val := by
  unfold DotDims.lhsIdx
  rw [dif_neg (show ¬(0 : Fin S3072x1024.rank) ∈ dot_S3072x1024_S1024x256_S3072x256_1_0_0_1_n_n.lhsBatch by decide), dif_pos (show (0 : Fin S3072x1024.rank) ∈ dot_S3072x1024_S1024x256_S3072x256_1_0_0_1_n_n.lhsNonContracting by decide)]
  rfl
theorem lhs_mm_1 (i : S3072x256.Idx) (q : dot_S3072x1024_S1024x256_S3072x256_1_0_0_1_n_n.contr.Idx) :
    (dot_S3072x1024_S1024x256_S3072x256_1_0_0_1_n_n.lhsIdx i q 1).val = (q ⟨0, by decide⟩).val :=
  dot_S3072x1024_S1024x256_S3072x256_1_0_0_1_n_n.lhsIdx_val_of_single rfl i q
theorem rhs_mm_0 (i : S3072x256.Idx) (q : dot_S3072x1024_S1024x256_S3072x256_1_0_0_1_n_n.contr.Idx) :
    (dot_S3072x1024_S1024x256_S3072x256_1_0_0_1_n_n.rhsIdx i q 0).val = (q ⟨0, by decide⟩).val :=
  dot_S3072x1024_S1024x256_S3072x256_1_0_0_1_n_n.rhsIdx_val_of_single rfl i q
theorem rhs_mm_1 (i : S3072x256.Idx) (q : dot_S3072x1024_S1024x256_S3072x256_1_0_0_1_n_n.contr.Idx) :
    (dot_S3072x1024_S1024x256_S3072x256_1_0_0_1_n_n.rhsIdx i q 1).val = (i 1).val := by
  unfold DotDims.rhsIdx
  rw [dif_neg (show ¬(1 : Fin S1024x256.rank) ∈ dot_S3072x1024_S1024x256_S3072x256_1_0_0_1_n_n.rhsBatch by decide), dif_pos (show (1 : Fin S1024x256.rank) ∈ dot_S3072x1024_S1024x256_S3072x256_1_0_0_1_n_n.rhsNonContracting by decide)]
  rfl

/-- The product of a `3072 × 1024` matrix with a `1024 × 256` matrix into the zero array, read at an entry: the sum
    over the 1024 contracted positions. -/
theorem matmul_read (A : FVec Ideal S3072x1024 .bf16) (B : FVec Ideal S1024x256 .bf16) (ρ : Fin 3072) (e : Fin 256) :
    FloatOps.matmul dot_S3072x1024_S1024x256_S3072x256_1_0_0_1_n_n none A B (constant (F := Ideal) S3072x256 .f32 0x00000000#32) (ix2 ρ e)
      = ∑ n : Fin 1024, A (ix2 ρ n) * B (ix2 n e) := by
  rw [Ideal.matmul_constant_zero_apply, ← Equiv.sum_comp (ValueIdx.contrEquiv1 dot_S3072x1024_S1024x256_S3072x256_1_0_0_1_n_n 1024 rfl rfl).symm]
  refine Finset.sum_congr rfl fun n _ => ?_
  have hk := ValueIdx.contrEquiv1_symm_val dot_S3072x1024_S1024x256_S3072x256_1_0_0_1_n_n 1024 rfl rfl n
  have el : dot_S3072x1024_S1024x256_S3072x256_1_0_0_1_n_n.lhsIdx (ix2 ρ e) ((ValueIdx.contrEquiv1 dot_S3072x1024_S1024x256_S3072x256_1_0_0_1_n_n 1024 rfl rfl).symm n) = ix2 ρ n := funext fun a => Fin.ext (by
    match a with
    | ⟨0, _⟩ => exact lhs_mm_0 _ _
    | ⟨1, _⟩ => exact (lhs_mm_1 _ _).trans hk)
  have er : dot_S3072x1024_S1024x256_S3072x256_1_0_0_1_n_n.rhsIdx (ix2 ρ e) ((ValueIdx.contrEquiv1 dot_S3072x1024_S1024x256_S3072x256_1_0_0_1_n_n 1024 rfl rfl).symm n) = ix2 n e := funext fun a => Fin.ext (by
    match a with
    | ⟨0, _⟩ => exact (rhs_mm_0 _ _).trans hk
    | ⟨1, _⟩ => exact rhs_mm_1 _ _)
  rw [el, er]

/-- The index column broadcast along the lanes, read at `(ρ, n)`: the word at stacked row `ρ`. -/
theorem lhsWord_apply {F : FTy → Type} [FloatOps F] (x0 : Vec F S1024x4 .i32) (ρ : Fin 3072) (n : Fin 1024) :
    broadcastTo S3072x1024 (idxCol x0) broadcasts_S3072x1_S3072x1024 (ix2 ρ n) = idxStack x0 ρ := by
  refine (broadcastTo_apply (α := BitVec 32) (s := S3072x1) (t := S3072x1024) (idxCol x0) broadcasts_S3072x1_S3072x1024 (ix2 ρ n) (ix2 ρ (0 : Fin 1)) (fun a => ?_)).trans (idxCol_apply x0 ρ)
  match a with
  | ⟨0, _⟩ => show ρ.val = if (3072 : Nat) = 1 then 0 else ρ.val; rw [if_neg (by decide)]
  | ⟨1, _⟩ => show 0 = if (1 : Nat) = 1 then 0 else n.val; rw [if_pos rfl]

/-- The lane numbers of chunk `k` broadcast along the rows, read at `(ρ, n)`: the word `n + 1024·k`. -/
theorem rhsWord_apply (k : Nat) (ρ : Fin 3072) (n : Fin 1024) :
    broadcastTo S3072x1024 (addi (iota .tc S1x1024 32 [1] iota_S1x1024_d1_w32) (broadcast S1x1024 (Scalar.muli (Scf.iv 0#32 1#32 k) 1024#32)))
      broadcasts_S1x1024_S3072x1024 (ix2 ρ n) = laneWord k n := by
  refine (broadcastTo_apply (α := BitVec 32) (s := S1x1024) (t := S3072x1024) _ broadcasts_S1x1024_S3072x1024 (ix2 ρ n) (ix2 (0 : Fin 1) n) (fun a => ?_)).trans ?_
  · match a with
    | ⟨0, _⟩ => show 0 = if (1 : Nat) = 1 then 0 else ρ.val; rw [if_pos rfl]
    | ⟨1, _⟩ => show n.val = if (1024 : Nat) = 1 then 0 else n.val; rw [if_neg (by decide)]
  · rfl

/-- One trip of the loop at an entry: the accumulator found plus the product of the chunk's one-hot matrix (entry
    `(ρ, n)` is one when the word at stacked row `ρ` is `n + 1024·k`, else zero) with the chunk's rows. -/
theorem pay7_apply (x0 : Vec Ideal S1024x4 .i32) (k : Fin k0_t1_loop.trips) (v88 : Vec Ideal S1024x256 .bf16)
    (v90 : Vec Ideal S3072x256 .f32) (ρ : Fin 3072) (e : Fin 256) :
    k0_pay7 x0 k v88 v90 (ix2 ρ e)
      = v90 (ix2 ρ e) + ∑ n : Fin 1024, (if idxStack x0 ρ = laneWord k.val n then (1 : EReal) else 0) * v88 (ix2 n e) := by
  unfold k0_pay7
  dsimp only
  simp only [shapeCast_self]
  rw [addf_apply]
  simp only [matmul]
  rw [matmul_read]
  refine congrArg (v90 (ix2 ρ e) + ·) (Finset.sum_congr rfl fun n _ => ?_)
  refine congrArg (· * v88 (ix2 n e)) ?_
  show FloatOps.sitofp (F := Ideal) .f32 ((IntOp.cmpi .eq
      (broadcastTo S3072x1024 (idxCol x0) broadcasts_S3072x1_S3072x1024 (ix2 ρ n))
      (broadcastTo S3072x1024 (addi (iota .tc S1x1024 32 [1] iota_S1x1024_d1_w32) (broadcast S1x1024 (Scalar.muli (Scf.iv 0#32 1#32 k.val) 1024#32)))
        broadcasts_S1x1024_S3072x1024 (ix2 ρ n))).setWidth 32) = _
  rw [lhsWord_apply, rhsWord_apply, hot_eq]

/-- A row of the stacked table read through the chunk that holds it. -/
theorem chunk_apply (x1 : Vec Ideal S8192x256 .bf16) (k : Fin k0_t1_loop.trips) (n : Fin 1024) (e : Fin 256)
    (hlt : 1024 * k.val + n.val < 8192) :
    chunk x1 k (ix2 n e) = x1 (ix2 (⟨1024 * k.val + n.val, hlt⟩ : Fin 8192) e) := rfl

/-- A word below 8192 meets exactly one lane of exactly one chunk: the one-hot row of chunk `k` against any column `f`
    is `f` at the word's place in the chunk when the word lies in chunk `k`, and zero otherwise. -/
theorem sum_hot (w : BitVec 32) (k : Nat) (hk : k < 8) (f : Fin 1024 → EReal) :
    ∑ n : Fin 1024, (if w = laneWord k n then (1 : EReal) else 0) * f n
      = if w.toNat / 1024 = k then f ⟨w.toNat % 1024, Nat.mod_lt _ (by norm_num)⟩ else 0 := by
  have hw : ∀ n : Fin 1024, w = laneWord k n ↔ w.toNat = n.val + 1024 * k := fun n => by
    rw [← laneWord_toNat k hk n]
    exact ⟨fun h => congrArg BitVec.toNat h, fun h => BitVec.eq_of_toNat_eq h⟩
  by_cases h : w.toNat / 1024 = k
  · rw [if_pos h, Finset.sum_eq_single (⟨w.toNat % 1024, Nat.mod_lt _ (by norm_num)⟩ : Fin 1024)]
    · rw [if_pos ((hw _).2 (by show w.toNat = w.toNat % 1024 + 1024 * k; omega)), one_mul]
    · intro n _ hn
      rw [if_neg (fun hc => hn (Fin.ext (by have := (hw n).1 hc; show n.val = w.toNat % 1024; omega))), zero_mul]
    · intro hc; exact absurd (Finset.mem_univ _) hc
  · rw [if_neg h]
    refine Finset.sum_eq_zero fun n _ => ?_
    rw [if_neg (fun hc => h (by have := (hw n).1 hc; have := n.isLt; omega)), zero_mul]

/-- After `m` chunks an entry of the accumulator holds the row its index word names if that row lies in the first `m`
    chunks, and is still zero otherwise. -/
theorem loopVal_inv (x0 : Vec Ideal S1024x4 .i32) (x1 : Vec Ideal S8192x256 .bf16) (ρ : Fin 3072) (e : Fin 256)
    (hw : (idxStack x0 ρ).toNat < 8192) :
    ∀ m : Nat, m ≤ k0_t1_loop.trips →
      loopVal x0 x1 m (ix2 ρ e)
        = if (idxStack x0 ρ).toNat < 1024 * m then x1 (ix2 (Cert.Spec.rowOf (idxStack x0 ρ)) e) else 0
  | 0, _ => by
    rw [if_neg (by omega)]
    exact pay6_apply _
  | m + 1, hm => by
    have hlt : m < k0_t1_loop.trips := hm
    have h8 : m < 8 := by have := trips_eq; omega
    have ih := loopVal_inv x0 x1 ρ e hw m (Nat.le_of_lt hlt)
    show (if h : m < k0_t1_loop.trips then k0_pay7 x0 ⟨m, h⟩ (chunk x1 ⟨m, h⟩) (loopVal x0 x1 m) else loopVal x0 x1 m) (ix2 ρ e) = _
    rw [dif_pos hlt, pay7_apply, ih, sum_hot _ m h8 (fun n => chunk x1 ⟨m, hlt⟩ (ix2 n e))]
    generalize idxStack x0 ρ = w at hw ⊢
    by_cases h1 : w.toNat < 1024 * m
    · rw [if_pos h1, if_neg (by omega), if_pos (by omega), add_zero]
    · by_cases h2 : w.toNat / 1024 = m
      · rw [if_neg h1, if_pos h2, if_pos (by omega), zero_add]
        have hlt' : 1024 * m + w.toNat % 1024 < 8192 := by omega
        refine (chunk_apply x1 ⟨m, hlt⟩ ⟨w.toNat % 1024, Nat.mod_lt _ (by norm_num)⟩ e hlt').trans ?_
        exact congrArg (fun r => x1 (ix2 r e)) (Fin.ext (by show 1024 * m + w.toNat % 1024 = w.toNat % 8192; omega))
      · rw [if_neg h1, if_neg h2, if_neg (by omega), add_zero]

/-- After the eight chunks, entry `(ρ, e)` of the accumulator is entry `(row, e)` of the stacked table, `row` the row the
    index word at stacked row `ρ` names. -/
theorem loopVal_apply (x0 : Vec Ideal S1024x4 .i32) (x1 : Vec Ideal S8192x256 .bf16)
    (hidx : ∀ (r : Fin 1024) (col : Fin 4), col.val < 3 → (x0 (ix2 r col)).toNat < 8192)
    (ρ : Fin 3072) (e : Fin 256) :
    loopVal x0 x1 k0_t1_loop.trips (ix2 ρ e) = x1 (ix2 (Cert.Spec.rowOf (idxStack (F := Ideal) x0 ρ)) e) := by
  have hw : (idxStack x0 ρ).toNat < 8192 := hidx _ _ (by show ρ.val / 1024 < 3; have := ρ.isLt; omega)
  rw [loopVal_inv x0 x1 ρ e hw _ (Nat.le_refl _), if_pos (by rw [trips_eq]; omega)]

end Cert.KernelIdeal.Gather
end
-- ==== Proof.PointMath.lean ====
/-
  One grid point's arithmetic. Given that the gathered block holds, at stacked row `ρ`, the row of the stacked
  table that the index word at `ρ` names, that the stacked table's left half is the table `X` and its right half
  zero, the point's running sum is the sum it found plus, over the block's 1024 triplets `(i, j, k)`, the
  contribution `softplus (dist i j − dist i k)` times the triplet's validity word read as a signed integer.

  The steps: the two 128-wide halves of a gathered row add to the table's row (`x + 0 = x`); stacked rows
  `r`, `1024 + r`, `2048 + r` are columns 0, 1, 2 of triplet `r`; the five lane sums are the inner products
  `⟨i,i⟩`, `⟨j,j⟩`, `⟨k,k⟩`, `⟨i,j⟩`, `⟨i,k⟩`; `max ((a + b) − 2·c) 0` is the clamped squared distance; the
  guarded `max d 0 + log1p (exp (0 − |d − 0|))` is `softplus d` because over the extended reals no number differs
  from itself, `d − 0 = d` and `0 − a = −a`; the sum down the 1024 rows and the final addition close it.
-/
import proofs.«404929_j80427557585292_3_alg».proof.Proof.KStep
import proofs.«404929_j80427557585292_3_alg».proof.Proof.Spec
import Idealize.ShloMosaic.PureOps.Ideal.Laws
import Idealize.ShloMosaic.Lib.Pipeline.Value
import Idealize.ShloMosaic.Lib.ValueLayout

noncomputable section
namespace Cert.KernelIdeal.PointMath
open Idealize.ShloMosaic Idealize.ShloMosaic.ValueIdx Cert.KernelIdeal Cert.KernelIdeal.Gen Cert.KernelIdeal.KStep

/-- The kernel's spelling of one triplet's contribution from the five lane sums. -/
def contrib (two zero ni nj nk dij dik : EReal) : EReal :=
  let d := max ((ni + nj) - two * dij) zero - max ((ni + nk) - two * dik) zero
  Scalar.select (Ideal.cmp .one (d - zero) (d - zero)) (d + zero)
    (max d zero + Ideal.log1p (Ideal.exp (zero - max (d - zero) (-(d - zero)))))

/-- The sum down the 1024 rows of a one-column block, read at its one entry. -/
theorem sum_rows (src : FVec Ideal S1024x1 .f32) (h : S1024x1.Reduces [0] S1) (hφ : FKind.Formats .f32)
    (hacc : (0x00000000#32 : BitVec 32) = FKind.add.neutral .f32 hφ) :
    multiReduction .add [0] S1 src 0x00000000#32 h hφ hacc (ix1 (0 : Fin 1)) = ∑ r : Fin 1024, src (ix2 r (0 : Fin 1)) := by
  refine (Ideal.multiReduction_add_single src 0x00000000#32 h hφ hacc (ix1 0)).trans ?_
  show ∑ k : Fin 1024, src (h.lift (ix1 0) k) = _
  refine Finset.sum_congr rfl (fun k _ => congrArg src ?_)
  funext a
  match a with
  | ⟨0, _⟩ => exact Fin.ext rfl
  | ⟨1, _⟩ => exact Fin.ext rfl

/-- The sum along the 128 lanes of a block, read at row `r`. -/
theorem sum_lanes (src : FVec Ideal S1024x128 .f32) (h : S1024x128.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ d : Fin 128, src (ix2 r d) := by
  refine (Ideal.multiReduction_add_single src 0x00000000#32 h hφ hacc (ix1 r)).trans ?_
  show ∑ k : Fin 128, src (h.lift (ix1 r) k) = _
  refine Finset.sum_congr rfl (fun k _ => congrArg src ?_)
  funext a
  match a with
  | ⟨0, _⟩ => exact Fin.ext rfl
  | ⟨1, _⟩ => exact Fin.ext rfl

/-- A vector of 1024 numbers viewed as a column reads its entry. -/
theorem col_apply {α : Type} (x : S1024.Idx → α) (h : S1024.ShapeCasts S1024x1) (r : Fin 1024) (u : Fin 1) :
    shapeCast S1024x1 x h (ix2 r u) = x (ix1 r) :=
  shapeCast_apply x h _ _ (by
    have hu : u.val = 0 := by omega
    rw [Shape.rowMajor_val_two, Shape.rowMajor_val_one]
    show r.val = r.val * 1 + u.val
    omega)

/-- The running sum after the point, over any five columns of lane sums, one vector of lane sums and a validity
    column: the sum found plus, row by row, the contribution as the kernel spells it times the validity entry. -/
theorem pay1_apply (v9 v25 v28 v31 v34 : FVec Ideal S1024x1 .f32) (v36 : FVec Ideal S1024 .f32) (acc : Vec Ideal S1x1 .f32) :
    k0_pay1 v9 v25 v28 v31 v34 v36 acc (ix2 (0 : Fin 1) (0 : Fin 1))
      = acc (ix2 (0 : Fin 1) (0 : Fin 1)) + ∑ r : Fin 1024,
          contrib (Ideal.ofBits .f32 0x40000000#32) (Ideal.ofBits .f32 0x00000000#32)
            (v25 (ix2 r (0 : Fin 1))) (v28 (ix2 r (0 : Fin 1))) (v31 (ix2 r (0 : Fin 1))) (v34 (ix2 r (0 : Fin 1))) (v36 (ix1 r))
          * v9 (ix2 r (0 : Fin 1)) := by
  unfold k0_pay1
  rw [shapeCast_self]
  refine (addf_apply _ _ _).trans ?_
  refine congrArg (acc (ix2 (0 : Fin 1) (0 : Fin 1)) + ·) ?_
  refine (shapeCast_a_1a_apply _ _ 0 0).trans ?_
  refine (sum_rows _ _ _ _).trans ?_
  refine Finset.sum_congr rfl (fun r _ => ?_)
  refine (mulf_apply _ _ _).trans ?_
  refine congrArg (· * v9 (ix2 r (0 : Fin 1))) ?_
  have hw := col_apply v36 shapeCasts_S1024_S1024x1 r 0
  generalize shapeCast S1024x1 v36 shapeCasts_S1024_S1024x1 = w at hw ⊢
  rw [← hw]
  rfl

/-- The kernel's spelling is the softplus of the difference of the two clamped distances. -/
theorem contrib_eq (two ni nj nk dij dik : EReal) :
    contrib two 0 ni nj nk dij dik
      = Cert.Spec.softplus (max ((ni + nj) - two * dij) 0 - max ((ni + nk) - two * dik) 0) := by
  unfold contrib Cert.Spec.softplus
  simp only [sub_zero, add_zero, zero_sub]
  have hc : ∀ v : EReal, Ideal.cmp .one v v = 0#1 := fun v => by simp [Ideal.cmp]
  rw [hc, select_zero]

/-- The two halves of a gathered row added: entry `d` plus entry `128 + d`. -/
theorem pay8_apply (g : Vec Ideal S3072x256 .f32) (ρ : Fin 3072) (d : Fin 128) :
    k0_pay8 g (ix2 ρ d) = g (ix2 ρ (⟨d.val, by have := d.isLt; omega⟩ : Fin 256))
      + g (ix2 ρ (⟨128 + d.val, by have := d.isLt; omega⟩ : Fin 256)) := by
  unfold k0_pay8
  refine (addf_apply _ _ _).trans ?_
  refine congrArg₂ (· + ·) ?_ ?_
  · exact slice2_axis1_apply 0 g _ ρ d _ (by simp)
  · exact slice2_axis1_apply 128 g _ ρ d _ rfl

/-- Column `c` of triplet `r` sits at stacked row `1024·c + r`. -/
theorem idxStack_eq (x0 : Vec Ideal S1024x4 .i32) (c : Fin 4) (r : Fin 1024) (ρ : Fin 3072) (hρ : ρ.val = 1024 * c.val + r.val) :
    idxStack (F := Ideal) x0 ρ = x0 (ix2 r c) := by
  unfold idxStack
  refine congrArg x0 ?_
  funext a
  match a with
  | ⟨0, _⟩ => exact Fin.ext (by show ρ.val % 1024 = r.val; have := r.isLt; omega)
  | ⟨1, _⟩ => exact Fin.ext (by show ρ.val / 1024 = c.val; have := r.isLt; omega)

section Rows
variable (X : Cert.Spec.SX.Idx → EReal) (x0 : Vec Ideal S1024x4 .i32) (x1 : Vec Ideal S8192x256 .bf16)
  (g : Vec Ideal S3072x256 .f32)
  (hg : ∀ (ρ : Fin 3072) (e : Fin 256), g (ix2 ρ e) = x1 (ix2 (Cert.Spec.rowOf (idxStack (F := Ideal) x0 ρ)) e))
  (hlo : ∀ (n : Fin 8192) (d : Fin 128), x1 (ix2 n (⟨d.val, by have := d.isLt; omega⟩ : Fin 256)) = X (ix2 n d))
  (hhi : ∀ (n : Fin 8192) (d : Fin 128), x1 (ix2 n (⟨128 + d.val, by have := d.isLt; omega⟩ : Fin 256)) = 0)
include hg hlo hhi

/-- Stacked row `ρ` of the added halves is the table's row the index word at `ρ` names. -/
theorem gfull_apply (ρ : Fin 3072) (d : Fin 128) :
    k0_pay8 g (ix2 ρ d) = X (ix2 (Cert.Spec.rowOf (idxStack (F := Ideal) x0 ρ)) d) := by
  rw [pay8_apply, hg, hg, hlo, hhi, add_zero]

/-- Stacked rows `r`: the table's row that column 0 of triplet `r` names. -/
theorem rowsI_apply (r : Fin 1024) (d : Fin 128) :
    k0_pay9 g (ix2 r d) = X (ix2 (Cert.Spec.rowOf (x0 (ix2 r (0 : Fin 4)))) d) := by
  unfold k0_pay9
  refine (slice2_axis0_apply 0 (k0_pay8 g) _ r d (⟨r.val, by have := r.isLt; omega⟩ : Fin 3072) (by simp)).trans ?_
  rw [gfull_apply X x0 x1 g hg hlo hhi, idxStack_eq x0 0 r _ (by simp)]

/-- Stacked rows `1024 + r`: the table's row that column 1 of triplet `r` names. -/
theorem rowsJ_apply (r : Fin 1024) (d : Fin 128) :
    k0_pay10 g (ix2 r d) = X (ix2 (Cert.Spec.rowOf (x0 (ix2 r (1 : Fin 4)))) d) := by
  unfold k0_pay10
  refine (slice2_axis0_apply 1024 (k0_pay8 g) _ r d (⟨1024 + r.val, by have := r.isLt; omega⟩ : Fin 3072) rfl).trans ?_
  rw [gfull_apply X x0 x1 g hg hlo hhi, idxStack_eq x0 1 r _ (by simp)]

/-- Stacked rows `2048 + r`: the table's row that column 2 of triplet `r` names. -/
theorem rowsK_apply (r : Fin 1024) (d : Fin 128) :
    k0_pay11 g (ix2 r d) = X (ix2 (Cert.Spec.rowOf (x0 (ix2 r (2 : Fin 4)))) d) := by
  unfold k0_pay11
  refine (slice2_axis0_apply 2048 (k0_pay8 g) _ r d (⟨2048 + r.val, by have := r.isLt; omega⟩ : Fin 3072) rfl).trans ?_
  rw [gfull_apply X x0 x1 g hg hlo hhi, idxStack_eq x0 2 r _ (by simp)]

end Rows

/-- The lane sum of a product of two blocks whose rows `r` are table rows `a` and `b` is their inner product. -/
theorem lane_dot (X : Cert.Spec.SX.Idx → EReal) (A B : FVec Ideal S1024x128 .f32) (a b : Fin 8192) (r : Fin 1024)
    (hA : ∀ d : Fin 128, A (ix2 r d) = X (ix2 a d)) (hB : ∀ d : Fin 128, B (ix2 r d) = X (ix2 b d))
    (h : S1024x128.Reduces [1] S1024) (hφ : FKind.Formats .f32)
    (hacc : (0x00000000#32 : BitVec 32) = FKind.add.neutral .f32 hφ) :
    multiReduction .add [1] S1024 (mulf A B) 0x00000000#32 h hφ hacc (ix1 r) = Cert.Spec.rowdot X a b := by
  refine (sum_lanes _ h hφ hacc r).trans ?_
  unfold Cert.Spec.rowdot
  refine Finset.sum_congr rfl (fun d _ => ?_)
  refine (mulf_apply _ _ _).trans ?_
  rw [hA, hB]

/-- The validity column as a number: the word read as a signed integer. -/
theorem pay5_apply (x0 : Vec Ideal S1024x4 .i32) (r : Fin 1024) :
    k0_pay5 (F := Ideal) x0 (ix2 r (0 : Fin 1)) = (((x0 (ix2 r (3 : Fin 4))).toInt : ℝ) : EReal) := by
  unfold k0_pay5 k0_pay4
  rw [shapeCast_self]
  refine (sitofp_apply _ _).trans ?_
  refine congrArg (fun w : BitVec 32 => ((w.toInt : ℝ) : EReal)) ?_
  exact slice2_axis1_apply 3 x0 _ r (0 : Fin 1) (3 : Fin 4) rfl

section Lanes
variable (X : Cert.Spec.SX.Idx → EReal) (x0 : Vec Ideal S1024x4 .i32) (x1 : Vec Ideal S8192x256 .bf16)
  (g : Vec Ideal S3072x256 .f32)
  (hg : ∀ (ρ : Fin 3072) (e : Fin 256), g (ix2 ρ e) = x1 (ix2 (Cert.Spec.rowOf (idxStack (F := Ideal) x0 ρ)) e))
  (hlo : ∀ (n : Fin 8192) (d : Fin 128), x1 (ix2 n (⟨d.val, by have := d.isLt; omega⟩ : Fin 256)) = X (ix2 n d))
  (hhi : ∀ (n : Fin 8192) (d : Fin 128), x1 (ix2 n (⟨128 + d.val, by have := d.isLt; omega⟩ : Fin 256)) = 0)
include hg hlo hhi

/-- ‖row i‖². -/
theorem pay12_apply (r : Fin 1024) (u : Fin 1) :
    k0_pay12 g (ix2 r u)
      = Cert.Spec.rowdot X (Cert.Spec.rowOf (x0 (ix2 r (0 : Fin 4)))) (Cert.Spec.rowOf (x0 (ix2 r (0 : Fin 4)))) := by
  unfold k0_pay12
  refine (col_apply _ _ r u).trans ?_
  exact lane_dot X _ _ _ _ r (rowsI_apply X x0 x1 g hg hlo hhi r) (rowsI_apply X x0 x1 g hg hlo hhi r) _ _ _

/-- ‖row j‖². -/
theorem pay13_apply (r : Fin 1024) (u : Fin 1) :
    k0_pay13 g (ix2 r u)
      = Cert.Spec.rowdot X (Cert.Spec.rowOf (x0 (ix2 r (1 : Fin 4)))) (Cert.Spec.rowOf (x0 (ix2 r (1 : Fin 4)))) := by
  unfold k0_pay13
  refine (col_apply _ _ r u).trans ?_
  exact lane_dot X _ _ _ _ r (rowsJ_apply X x0 x1 g hg hlo hhi r) (rowsJ_apply X x0 x1 g hg hlo hhi r) _ _ _

/-- ‖row k‖². -/
theorem pay14_apply (r : Fin 1024) (u : Fin 1) :
    k0_pay14 g (ix2 r u)
      = Cert.Spec.rowdot X (Cert.Spec.rowOf (x0 (ix2 r (2 : Fin 4)))) (Cert.Spec.rowOf (x0 (ix2 r (2 : Fin 4)))) := by
  unfold k0_pay14
  refine (col_apply _ _ r u).trans ?_
  exact lane_dot X _ _ _ _ r (rowsK_apply X x0 x1 g hg hlo hhi r) (rowsK_apply X x0 x1 g hg hlo hhi r) _ _ _

/-- ⟨row i, row j⟩. -/
theorem pay15_apply (r : Fin 1024) (u : Fin 1) :
    k0_pay15 g (ix2 r u)
      = Cert.Spec.rowdot X (Cert.Spec.rowOf (x0 (ix2 r (0 : Fin 4)))) (Cert.Spec.rowOf (x0 (ix2 r (1 : Fin 4)))) := by
  unfold k0_pay15
  refine (col_apply _ _ r u).trans ?_
  exact lane_dot X _ _ _ _ r (rowsI_apply X x0 x1 g hg hlo hhi r) (rowsJ_apply X x0 x1 g hg hlo hhi r) _ _ _

/-- ⟨row i, row k⟩. -/
theorem pay16_apply (r : Fin 1024) :
    k0_pay16 g (ix1 r)
      = Cert.Spec.rowdot X (Cert.Spec.rowOf (x0 (ix2 r (0 : Fin 4)))) (Cert.Spec.rowOf (x0 (ix2 r (2 : Fin 4)))) := by
  unfold k0_pay16
  exact lane_dot X _ _ _ _ r (rowsI_apply X x0 x1 g hg hlo hhi r) (rowsK_apply X x0 x1 g hg hlo hhi r) _ _ _

end Lanes

theorem step_of_rows (X : Cert.Spec.SX.Idx → EReal) (x0 : Vec Ideal S1024x4 .i32) (x1 : Vec Ideal S8192x256 .bf16)
    (g : Vec Ideal S3072x256 .f32) (acc : Vec Ideal S1x1 .f32)
    (hg : ∀ (ρ : Fin 3072) (e : Fin 256), g (ix2 ρ e) = x1 (ix2 (Cert.Spec.rowOf (idxStack (F := Ideal) x0 ρ)) e))
    (hlo : ∀ (n : Fin 8192) (d : Fin 128), x1 (ix2 n (⟨d.val, by have := d.isLt; omega⟩ : Fin 256)) = X (ix2 n d))
    (hhi : ∀ (n : Fin 8192) (d : Fin 128), x1 (ix2 n (⟨128 + d.val, by have := d.isLt; omega⟩ : Fin 256)) = 0) :
    k0_pay1 (k0_pay5 x0) (k0_pay12 g) (k0_pay13 g) (k0_pay14 g) (k0_pay15 g) (k0_pay16 g) acc (ix2 (0 : Fin 1) (0 : Fin 1))
      = acc (ix2 (0 : Fin 1) (0 : Fin 1))
        + ∑ r : Fin 1024, Cert.Spec.term X (x0 (ix2 r (0 : Fin 4))) (x0 (ix2 r (1 : Fin 4))) (x0 (ix2 r (2 : Fin 4)))
            * (((x0 (ix2 r (3 : Fin 4))).toInt : ℝ) : EReal) := by
  refine (pay1_apply _ _ _ _ _ _ _).trans ?_
  refine congrArg (acc (ix2 (0 : Fin 1) (0 : Fin 1)) + ·) ?_
  refine Finset.sum_congr rfl (fun r _ => ?_)
  refine congrArg₂ (· * ·) ?_ (pay5_apply x0 r)
  rw [Ideal.ofBits_zero_f32, contrib_eq,
    pay12_apply X x0 x1 g hg hlo hhi r 0, pay13_apply X x0 x1 g hg hlo hhi r 0, pay14_apply X x0 x1 g hg hlo hhi r 0,
    pay15_apply X x0 x1 g hg hlo hhi r 0, pay16_apply X x0 x1 g hg hlo hhi r]
  rfl

end Cert.KernelIdeal.PointMath
end
-- ==== Proof.Algebra.lean ====
/- Re-indexing of a guarded sum over a 2 × 98 × 1024 grid of positions laid out row-major
as a sum over an initial segment of the naturals, and the cancellation x − x = 0 for a real x
inside the extended reals. -/
import Idealize.ShloMosaic.PureOps.Ideal
import Mathlib.Algebra.BigOperators.Fin
import Mathlib.Algebra.BigOperators.Intervals

noncomputable section
namespace Cert.Algebra
open scoped BigOperators

/-- A sum over an m × n grid, the position (a, b) read as the natural number n·a + b, is the
sum over the first m·n naturals: induction on the number of rows, each new row being the next
stretch of n consecutive naturals. -/
theorem sum_range_grid (m n : ℕ) (f : ℕ → EReal) :
    ∑ a ∈ Finset.range m, ∑ b ∈ Finset.range n, f (n * a + b)
      = ∑ t ∈ Finset.range (m * n), f t := by
  induction m with
  | zero => simp
  | succ m ih =>
    rw [Finset.sum_range_succ, ih, Nat.succ_mul, Finset.sum_range_add, Nat.mul_comm n m]

/-- The same for three nested levels: the position (i, j, k) of an a × b × c grid is the natural
number c·(b·i + j) + k. The two inner levels form a b·c-long stretch by the two-level statement,
and then the outer level is the two-level statement again with rows of length b·c. -/
theorem sum_range_grid3 (a b c : ℕ) (f : ℕ → EReal) :
    ∑ i ∈ Finset.range a, ∑ j ∈ Finset.range b, ∑ k ∈ Finset.range c, f (c * (b * i + j) + k)
      = ∑ t ∈ Finset.range (a * (b * c)), f t := by
  have h1 : ∀ i, ∑ j ∈ Finset.range b, ∑ k ∈ Finset.range c, f (c * (b * i + j) + k)
      = ∑ u ∈ Finset.range (b * c), f ((b * c) * i + u) := by
    intro i
    rw [← sum_range_grid b c (fun u => f ((b * c) * i + u))]
    refine Finset.sum_congr rfl fun j _ => Finset.sum_congr rfl fun k _ => ?_
    congr 1
    ring
  simp only [h1]
  exact sum_range_grid a (b * c) f

/-- A sum over the first N + K naturals of a term that is switched off from N on is the sum
over the first N naturals: the tail of K terms is all zeros. -/
theorem sum_range_guard (N K : ℕ) (φ : ℕ → EReal) :
    ∑ t ∈ Finset.range (N + K), (if t < N then φ t else 0) = ∑ t ∈ Finset.range N, φ t := by
  rw [Finset.sum_range_add]
  have h1 : ∑ x ∈ Finset.range N, (if x < N then φ x else 0) = ∑ x ∈ Finset.range N, φ x :=
    Finset.sum_congr rfl fun x hx => if_pos (Finset.mem_range.mp hx)
  have h2 : ∑ x ∈ Finset.range K, (if N + x < N then φ (N + x) else 0) = 0 :=
    Finset.sum_eq_zero fun x _ => if_neg (by omega)
  rw [h1, h2, add_zero]

theorem sum_blocks (φ : ℕ → EReal) :
    (∑ cc : Fin 2, ∑ s : Fin 98, ∑ r : Fin 1024,
        (if 1024 * (98 * cc.val + s.val) + r.val < 200000 then φ (1024 * (98 * cc.val + s.val) + r.val) else 0))
      = ∑ t : Fin 200000, φ t.val := by
  -- the grid is the first 2·(98·1024) = 200000 + 704 naturals; the guard cuts the last 704 off
  refine (?_ : _ = ∑ t ∈ Finset.range (2 * (98 * 1024)),
      (if t < 200000 then φ t else 0)).trans ?_
  · rw [← sum_range_grid3 2 98 1024 (fun t => if t < 200000 then φ t else 0)]
    simp only [Finset.sum_range]
  · rw [show 2 * (98 * 1024) = 200000 + 704 from by norm_num, sum_range_guard, Finset.sum_range]

theorem sub_self_of_real (x : EReal) (h : ∃ r : ℝ, x = (r : EReal)) : x - x = 0 := by
  obtain ⟨r, rfl⟩ := h
  rw [← EReal.coe_sub, sub_self, EReal.coe_zero]

end Cert.Algebra
end
-- ==== Proof.Tail.lean ====
/- The host operations after the region: the two cores' partial sums are added up from zero, the total is divided
   by the float whose word is 0x48435000 (the number of triplets), and the scalar is reshaped to a one-entry vector.
   `tail` is that function of the 2×1×1 result array; `tail_eq` reads the program's last buffer as `tail` of the
   array the region leaves; `tail_apply` reads `tail` at the exact instance as a sum over the two cores divided by
   the constant. -/
import proofs.«404929_j80427557585292_3_alg».proof.Proof.Gen.KernelIdeal.Frame
import Idealize.ShloMosaic.Lib.Pipeline.Value
import Idealize.ShloMosaic.Lib.StableHlo.Run
import Idealize.ShloMosaic.Lib.ValueIdx
import Idealize.ShloMosaic.PureOps.Ideal.Laws

noncomputable section
namespace Cert.KernelIdeal.Tail
open Idealize.ShloMosaic Idealize.ShloMosaic.ValueIdx Idealize.SL.Sem Cert.KernelIdeal Cert.KernelIdeal.Gen
variable {F : FTy → Type} [FloatOps F]

/-- The host operations after the region, as one function of the kernel's result array. -/
def tail (o : Vec F S2x1x1 .f32) : Vec F S1 .f32 :=
  shapeCast S1 (Host.divf (Host.reduceAdd o (constant (F := F) S_ .f32 0x00000000#32) reducesTo_S2x1x1_S_d0_1_2 h_S_)
    (constant (F := F) S_ .f32 0x48435000#32)) shapeCasts_S_S1

theorem tail_eq (m : (ℓ : Loc nD τ sig) → Buf (Elt F) ℓ) (c : Dev nD) :
    (Pipeline.afterTail₀ cfgs (dats m) 0 (V0 m) [hostOps1] c main_v15 : Vec F S1 .f32)
      = tail ((dats m 0 c).arrAt 2 cfg0.N : Vec F S2x1x1 .f32) := by
  -- the five operations run on the region's final buffers; their operand is the array of output window 2
  unfold Pipeline.afterTail₀
  show StableHlo.after hostOps1 _ (Proc.devRef .tc main_v15) = _
  after_results
  exact congrArg (tail (F := F))
    (Pipeline.withArrays_arr spec0 launch0.win.arr_inj c (V0 m c) (fun w => (dats m 0 c).arrAt w (cfgs 0).N) 2)

/-- An index of the 2×1×1 result array is its core coordinate: the two unit axes carry nothing. -/
def coreIdx : Fin 2 ≃ S2x1x1.Idx where
  toFun cc := ix3 cc (0 : Fin 1) (0 : Fin 1)
  invFun j := j 0
  left_inv _ := rfl
  right_inv j := by
    have h1 : (0 : Fin 1) = j 1 := Subsingleton.elim _ _
    have h2 : (0 : Fin 1) = j 2 := Subsingleton.elim _ _
    exact (congrArg₂ (ix3 (n0 := 2) (n1 := 1) (n2 := 1) (j 0)) h1 h2).trans (eq_ix3 j).symm

theorem tail_apply (o : Vec Ideal S2x1x1 .f32) (i : S1.Idx) :
    tail (F := Ideal) o i
      = Ideal.div (∑ cc : Fin 2, o (ix3 cc (0 : Fin 1) (0 : Fin 1))) (Ideal.ofBits .f32 0x48435000#32) := by
  -- read at its one index: the quotient of (0 + the sum over all indices of o) by the constant
  show Ideal.div (Ideal.hostReduceAdd reducesTo_S2x1x1_S_d0_1_2 o (Ideal.ofBits .f32 0x00000000#32) _)
      (Ideal.ofBits .f32 0x48435000#32) = _
  rw [Ideal.hostReduceAdd_total _ (fun b => b.elim0), Ideal.ofBits_zero_f32, zero_add]
  -- the sum over the array's indices is the sum over the two cores
  exact congrArg (Ideal.div · (Ideal.ofBits .f32 0x48435000#32))
    (Fintype.sum_equiv coreIdx (fun cc => o (ix3 cc (0 : Fin 1) (0 : Fin 1))) o (fun _ => rfl)).symm

end Cert.KernelIdeal.Tail
end
-- ==== Proof.KValue.lean ====
/-
  The kernel's result, at the exact instance, is the mean of the triplets' contributions.

  Position `n` of the padded triplet list contributes `phi n`: the triplet's term below 200000, zero beyond
  (there the validity word is 0 and the product vanishes). A grid point adds to the running sum its block's 1024
  contributions (`step_eq`: the gathered rows are rows of the table because every index word is below 8192, the
  stacked table's right half `x − x` is zero because every entry is a real). So after the points of a core the
  running sum is the sum of its 98 blocks (`acc_eq`, by induction on the point), the result array holds one such sum
  per core, and the host's total over both cores is the sum over all 200704 positions, which is the sum of the
  200000 terms (`Algebra.sum_blocks`).
-/
import proofs.«404929_j80427557585292_3_alg».proof.Proof.KRun
import proofs.«404929_j80427557585292_3_alg».proof.Proof.HostPre
import proofs.«404929_j80427557585292_3_alg».proof.Proof.Gather
import proofs.«404929_j80427557585292_3_alg».proof.Proof.PointMath
import proofs.«404929_j80427557585292_3_alg».proof.Proof.Algebra
import proofs.«404929_j80427557585292_3_alg».proof.Proof.Tail
import Idealize.ShloMosaic.Lib.ValueLayout

noncomputable section

namespace Cert.KernelIdeal.KValue

open Idealize.ShloMosaic Idealize.ShloMosaic.ValueIdx Idealize.SL.Sem Cert.KernelIdeal Cert.KernelIdeal.Gen
open Cert.KernelIdeal.KStep Cert.KernelIdeal.KRun Cert.KernelIdeal.HostPre

variable (m : (ℓ : Loc nD τ sig) → Buf (Elt Ideal) ℓ) (c : Dev nD)

/-- The contribution of position `n` of the padded triplet list. -/
def phi (n : ℕ) : EReal :=
  if h : n < 200000 then
    Cert.Spec.term (Xarg m c) (Targ m c (ix2 (⟨n, h⟩ : Fin 200000) (0 : Fin 3))) (Targ m c (ix2 (⟨n, h⟩ : Fin 200000) (1 : Fin 3)))
      (Targ m c (ix2 (⟨n, h⟩ : Fin 200000) (2 : Fin 3)))
  else 0

/-- The contributions of block `t`: positions `1024·t … 1024·t + 1023`. -/
def blockSum (t : ℕ) : EReal :=
  ∑ r : Fin 1024, (if 1024 * t + r.val < 200000 then phi m c (1024 * t + r.val) else 0)

/-- The zero the running sum restarts from. -/
theorem pay3_zero : (k0_pay3 (F := Ideal)) (ix2 (0 : Fin 1) (0 : Fin 1)) = 0 := by
  unfold k0_pay3
  rw [shapeCast_self]
  exact Ideal.ofBits_zero_f32

/-- The output block is the running sum, re-laid. -/
theorem pay2_apply (v : Vec Ideal S1x1 .f32) :
    k0_pay2 (F := Ideal) v (ix3 (0 : Fin 1) (0 : Fin 1) (0 : Fin 1)) = v (ix2 (0 : Fin 1) (0 : Fin 1)) := by
  unfold k0_pay2
  exact shapeCast_ab_1ab_apply v _ 0 0 0

variable (hfin : ∀ i, ∃ r : ℝ, Xarg m c i = (r : EReal)) (hrange : ∀ i, (Targ m c i).toNat < 8192)

include hrange in
/-- Every index word of a block names a row of the table. -/
theorem block_idx (t : Fin cfg0.N) (r : Fin 1024) (col : Fin 4) (hcol : col.val < 3) :
    ((iblk m c 0 t : S1024x4.Idx → BitVec 32) (ix2 r col)).toNat < 8192 := by
  rw [iblk0_apply]
  have e := comb_idx m c (⟨1024 * t.val + r.val, by
      have hN : t.val < 196 := lt_of_lt_of_eq t.isLt (show cfg0.N = 196 from N_0)
      have := r.isLt; omega⟩ : Fin 200704) (⟨col.val, hcol⟩ : Fin 3)
  rw [show (⟨(⟨col.val, hcol⟩ : Fin 3).val, by omega⟩ : Fin 4) = col from rfl] at e
  rw [e]
  split
  · exact hrange _
  · decide

include hfin hrange in
/-- One grid point: the running sum grows by the block's contributions. -/
theorem step_eq (t : Fin cfg0.N) (acc : Vec Ideal S1x1 .f32) :
    stepVal (iblk m c 0 t) (iblk m c 1 t) acc (ix2 (0 : Fin 1) (0 : Fin 1))
      = acc (ix2 (0 : Fin 1) (0 : Fin 1)) + blockSum m c t.val := by
  have hidx := block_idx m c hrange t
  have hlo : ∀ (n : Fin 8192) (d : Fin 128),
      (iblk m c 1 t : S8192x256.Idx → EReal) (ix2 n (⟨d.val, by have := d.isLt; omega⟩ : Fin 256)) = Xarg m c (ix2 n d) := by
    intro n d; rw [iblk1_eq]; exact xstk_lo m c n d
  have hhi : ∀ (n : Fin 8192) (d : Fin 128),
      (iblk m c 1 t : S8192x256.Idx → EReal) (ix2 n (⟨128 + d.val, by have := d.isLt; omega⟩ : Fin 256)) = (0 : EReal) := by
    intro n d; rw [iblk1_eq, xstk_hi m c n d]; exact Cert.Algebra.sub_self_of_real _ (hfin _)
  have hg := Cert.KernelIdeal.Gather.loopVal_apply (iblk m c 0 t) (iblk m c 1 t) hidx
  refine (Cert.KernelIdeal.PointMath.step_of_rows (Xarg m c) (iblk m c 0 t) (iblk m c 1 t)
    (loopVal (iblk m c 0 t) (iblk m c 1 t) k0_t1_loop.trips) acc hg hlo hhi).trans ?_
  congr 1
  unfold blockSum
  refine Finset.sum_congr rfl fun r _ => ?_
  have hb : 1024 * t.val + r.val < 200704 := by
    have hN : t.val < 196 := lt_of_lt_of_eq t.isLt (show cfg0.N = 196 from N_0)
    have := r.isLt; omega
  rw [iblk0_apply m c t r 0, iblk0_apply m c t r 1, iblk0_apply m c t r 2, iblk0_apply m c t r 3]
  have e0 := comb_idx m c (⟨1024 * t.val + r.val, hb⟩ : Fin 200704) (0 : Fin 3)
  have e1 := comb_idx m c (⟨1024 * t.val + r.val, hb⟩ : Fin 200704) (1 : Fin 3)
  have e2 := comb_idx m c (⟨1024 * t.val + r.val, hb⟩ : Fin 200704) (2 : Fin 3)
  have e3 := comb_valid m c (⟨1024 * t.val + r.val, hb⟩ : Fin 200704)
  rw [show (⟨((0 : Fin 3)).val, by omega⟩ : Fin 4) = (0 : Fin 4) from rfl] at e0
  rw [show (⟨((1 : Fin 3)).val, by omega⟩ : Fin 4) = (1 : Fin 4) from rfl] at e1
  rw [show (⟨((2 : Fin 3)).val, by omega⟩ : Fin 4) = (2 : Fin 4) from rfl] at e2
  dsimp only at e0 e1 e2 e3
  rw [e0, e1, e2, e3]
  by_cases h : 1024 * t.val + r.val < 200000
  · simp only [dif_pos h, if_pos h]
    unfold phi
    rw [dif_pos h]
    have : (((1#32 : BitVec 32).toInt : ℝ) : EReal) = 1 := by
      rw [show (1#32 : BitVec 32).toInt = 1 from by decide]; simp
    rw [this, mul_one]
  · simp only [dif_neg h, if_neg h]
    have : (((0#32 : BitVec 32).toInt : ℝ) : EReal) = 0 := by
      rw [show (0#32 : BitVec 32).toInt = 0 from by decide]; simp
    rw [this, mul_zero]

include hfin hrange in
/-- The running sum after point `n`: the blocks of its core up to it. -/
theorem acc_eq (n : ℕ) (hn : n < cfg0.N) :
    accAfter m c n hn (ix2 (0 : Fin 1) (0 : Fin 1))
      = ∑ s ∈ Finset.range (n % 98 + 1), blockSum m c (98 * (n / 98) + s) := by
  induction n with
  | zero =>
    rw [accAfter_restart m c ⟨0, hn⟩ (Nat.zero_mod _), step_eq m c hfin hrange, pay3_zero, zero_add]
    simp
  | succ n ih =>
    by_cases h0 : (n + 1) % 98 = 0
    · rw [accAfter_restart m c ⟨n + 1, hn⟩ h0, step_eq m c hfin hrange, pay3_zero, zero_add]
      show blockSum m c (n + 1) = _
      rw [h0, Finset.sum_range_one, Nat.add_zero]
      congr 1
      omega
    · rw [accAfter_carry m c ⟨n + 1, hn⟩ h0, step_eq m c hfin hrange]
      show accAfter m c (n + 1 - 1) _ (ix2 (0 : Fin 1) (0 : Fin 1)) + blockSum m c (n + 1) = _
      rw [accAfter_congr m c (by omega : n + 1 - 1 = n) _ (Nat.lt_of_succ_lt hn), ih (Nat.lt_of_succ_lt hn)]
      have hd : (n + 1) / 98 = n / 98 := by omega
      have hm : (n + 1) % 98 = n % 98 + 1 := by omega
      rw [hd, hm, Finset.sum_range_succ (fun s => blockSum m c (98 * (n / 98) + s)) (n % 98 + 1)]
      congr 2
      omega

include hfin hrange in
/-- A core's entry of the result array: the sum of its 98 blocks. -/
theorem out_eq (cc : Fin 2) :
    outArr m c (ix3 cc (0 : Fin 1) (0 : Fin 1)) = ∑ s : Fin 98, blockSum m c (98 * cc.val + s.val) := by
  show k0_pay2 (accAfter m c (98 * cc.val + 97) _) (ix3 (0 : Fin 1) (0 : Fin 1) (0 : Fin 1)) = _
  rw [pay2_apply, acc_eq m c hfin hrange]
  have hcc := cc.isLt
  have hd : (98 * cc.val + 97) / 98 = cc.val := by omega
  have hm : (98 * cc.val + 97) % 98 + 1 = 98 := by omega
  rw [hd, hm, Finset.sum_range]

include hfin hrange in
/-- THE KERNEL'S VALUE: the host's tail of the result array is the mean of the triplets' contributions. -/
theorem kernel_value (i : S1.Idx) :
    Cert.KernelIdeal.Tail.tail (F := Ideal) (outArr m c) i = Cert.Spec.loss (Xarg m c) (Targ m c) := by
  rw [Cert.KernelIdeal.Tail.tail_apply]
  unfold Cert.Spec.loss
  refine congrArg (fun s => Ideal.div s (Ideal.ofBits .f32 0x48435000#32)) ?_
  rw [Finset.sum_congr rfl (fun cc _ => out_eq m c hfin hrange cc)]
  unfold blockSum
  rw [Cert.Algebra.sum_blocks (phi m c)]
  unfold Cert.Spec.total
  refine Finset.sum_congr rfl fun t _ => ?_
  unfold phi
  rw [dif_pos t.isLt]

end Cert.KernelIdeal.KValue

end
-- ==== Proof.RefValue.lean ====
/-
  The reference's result is the mean the specification states.

  The reference forms the whole 8192 × 8192 matrix of clamped squared distances of the table's rows,
  `max (‖a‖² + ‖b‖² − 2·⟨a, b⟩) 0` at entry `(a, b)`, and reads it at the pairs `(i, j)` and `(i, k)` of each triplet
  by a point gather whose start indices are the triplet's columns, wrapped (`w + 8192` when `w` is negative) and then
  clamped into `[0, 8191]`. For a word below 8192 the wrap and the clamp change nothing, so the gathered entries are the
  distances of the rows the words name; their difference goes through `max d 0 + log (1 + e^(−|d|))`, the 200000 values
  are summed from zero and the sum is divided by the literal 200000. Read one element at a time this is `Spec.loss`.
-/
import proofs.«404929_j80427557585292_3_alg».proof.Proof.Gen.ReferenceIdeal.Read
import proofs.«404929_j80427557585292_3_alg».proof.Proof.Spec
import Idealize.ShloMosaic.PureOps.Ideal.Laws

noncomputable section
namespace Cert.ReferenceIdeal.RefValue
open Idealize.ShloMosaic Idealize.ShloMosaic.ValueIdx Cert.ReferenceIdeal Cert.ReferenceIdeal.Gen

/-! ## The point gather read at an index -/

/-- The point gather's dimension numbers: both operand axes collapsed and both named by the start index map, the index
    vector along axis 1 of the start indices, slices of one element. -/
abbrev G := gather_S8192x8192_S200000x2_S200000_n_01_n_n_01_1_11

/-- Result element `t` of the point gather is the operand at `(idx[t, 0], idx[t, 1])`, each start index read signed and
    clamped into `[0, 8191]`: on either operand axis the batching and offset coordinates are zero and the slice has one
    element, so the operand coordinate is the clamped start. -/
theorem gather_point_apply {α : Type} {w : Nat} (x : S8192x8192.Idx → α) (idx : IVec S200000x2 w) (t : Fin 200000) :
    Host.gather G x idx (ix1 t) =
      x (ix2 (⟨min (idx (ix2 t (0 : Fin 2))).toInt.toNat 8191, by omega⟩ : Fin 8192)
             (⟨min (idx (ix2 t (1 : Fin 2))).toInt.toNat 8191, by omega⟩ : Fin 8192)) := by
  unfold Host.gather
  congr 1
  funext a
  refine Fin.ext ?_
  match a with
  | ⟨0, _⟩ =>
    show G.start (ix1 t) idx 0 + G.batchCoord (ix1 t) 0 + G.offCoord (ix1 t) 0 = _
    rw [GatherDims.batchCoord_eq_zero _ _ _ List.not_mem_nil,
      GatherDims.offCoord_eq_zero _ _ _ (fun h => ((GatherDims.mem_sKept _ _).mp h).1 (List.mem_cons_self))]
    simp only [Nat.add_zero]
    unfold GatherDims.start
    rw [dif_pos (show (0 : Fin 2) ∈ G.startIndexMap from List.mem_cons_self)]
    have hsi : G.siIdx (ix1 t) ⟨List.idxOf (0 : Fin 2) G.startIndexMap,
        List.idxOf_lt_length_iff.2 (List.mem_cons_self)⟩ = ix2 t (0 : Fin 2) := by
      funext b; refine Fin.ext ?_
      match b with
      | ⟨0, _⟩ => rfl
      | ⟨1, _⟩ => rfl
    rw [hsi]
    rfl
  | ⟨1, _⟩ =>
    show G.start (ix1 t) idx 1 + G.batchCoord (ix1 t) 1 + G.offCoord (ix1 t) 1 = _
    rw [GatherDims.batchCoord_eq_zero _ _ _ List.not_mem_nil,
      GatherDims.offCoord_eq_zero _ _ _ (fun h => ((GatherDims.mem_sKept _ _).mp h).1 (List.mem_cons_of_mem _ List.mem_cons_self))]
    simp only [Nat.add_zero]
    unfold GatherDims.start
    rw [dif_pos (show (1 : Fin 2) ∈ G.startIndexMap from List.mem_cons_of_mem _ List.mem_cons_self)]
    have hsi : G.siIdx (ix1 t) ⟨List.idxOf (1 : Fin 2) G.startIndexMap,
        List.idxOf_lt_length_iff.2 (List.mem_cons_of_mem _ List.mem_cons_self)⟩ = ix2 t (1 : Fin 2) := by
      funext b; refine Fin.ext ?_
      match b with
      | ⟨0, _⟩ => rfl
      | ⟨1, _⟩ => rfl
    rw [hsi]
    rfl

/-! ## Words: the wrap of a row number below 8192 and its clamp -/

/-- A word below 8192 is its own signed reading. -/
theorem toInt_of_small (w : BitVec 32) (h : w.toNat < 8192) : w.toInt = (w.toNat : Int) := by
  rw [BitVec.toInt_eq_toNat_cond, if_pos (by omega)]

/-- A word below 8192 is not negative, so the wrap `select (w <ₛ 0) (w + 8192) w` is the word. -/
theorem wrap_id (w : BitVec 32) (h : w.toNat < 8192) :
    Scalar.select (IntOp.cmpi .slt w 0#32) (IntOp.addi w 8192#32) w = w := by
  have hs : w.slt 0#32 = false := by
    rw [BitVec.slt, toInt_of_small w h]
    simp
  have hc : IntOp.cmpi .slt w 0#32 = 0#1 := by
    unfold IntOp.cmpi
    show BitVec.ofBool (w.slt 0#32) = 0#1
    rw [hs]; rfl
  rw [hc, select_zero]

/-- The clamp of a word below 8192 into `[0, 8191]` is the row the word names. -/
theorem clamp_row (w : BitVec 32) (h : w.toNat < 8192) :
    (⟨min w.toInt.toNat 8191, by omega⟩ : Fin 8192) = Cert.Spec.rowOf w := by
  apply Fin.ext
  show min w.toInt.toNat 8191 = w.toNat % 8192
  rw [toInt_of_small w h, Int.toNat_natCast, Nat.mod_eq_of_lt h]
  omega

/-! ## Two columns side by side -/

/-- Two columns joined along axis 1: column 0 of the result is the first … -/
theorem concat_cols_left {α : Type} (c0 c1 : S200000x1.Idx → α) (t : Fin 200000) :
    concatenate S200000x2 1 [⟨S200000x1, c0⟩, ⟨S200000x1, c1⟩] concatenates_S200000x1_S200000x1_S200000x2_d1
      (ix2 t (0 : Fin 2)) = c0 (ix2 t (0 : Fin 1)) :=
  concatenate_pair_apply_left 1 c0 c1 concatenates_S200000x1_S200000x1_S200000x2_d1 (ix2 t (0 : Fin 2)) rfl
    (ix2 t (0 : Fin 1)) (fun b => by match b with | ⟨0, _⟩ => rfl | ⟨1, _⟩ => rfl)

/-- … and column 1 is the second. -/
theorem concat_cols_right {α : Type} (c0 c1 : S200000x1.Idx → α) (t : Fin 200000) :
    concatenate S200000x2 1 [⟨S200000x1, c0⟩, ⟨S200000x1, c1⟩] concatenates_S200000x1_S200000x1_S200000x2_d1
      (ix2 t (1 : Fin 2)) = c1 (ix2 t (0 : Fin 1)) :=
  concatenate_pair_apply_right 1 c0 c1 concatenates_S200000x1_S200000x1_S200000x2_d1 (ix2 t (1 : Fin 2)) rfl rfl
    (ix2 t (0 : Fin 1)) (fun b hb => by
      match b with
      | ⟨0, _⟩ => rfl
      | ⟨1, _⟩ => exact absurd rfl hb) rfl

/-! ## The index columns of the triplet table -/

section Columns
variable (x1 : (⟨S200000x3, .i32⟩ : BufTy).Contents (Elt Ideal))

/-- Column 0 of the triplets as a vector. -/
theorem v14_apply (t : Fin 200000) : Read.val_main_v14 (F := Ideal) x1 (ix1 t) = x1 (ix2 t (0 : Fin 3)) := by
  rw [Read.val_main_v14_apply, Read.val_main_v13_apply]
  exact congrArg x1 (funext fun a => Fin.ext (by
    match a with
    | ⟨0, _⟩ => exact Nat.div_one _
    | ⟨1, _⟩ => rfl))

/-- Column 1. -/
theorem v16_apply (t : Fin 200000) : Read.val_main_v16 (F := Ideal) x1 (ix1 t) = x1 (ix2 t (1 : Fin 3)) := by
  rw [Read.val_main_v16_apply, Read.val_main_v15_apply]
  exact congrArg x1 (funext fun a => Fin.ext (by
    match a with
    | ⟨0, _⟩ => exact Nat.div_one _
    | ⟨1, _⟩ => rfl))

/-- Column 2. -/
theorem v18_apply (t : Fin 200000) : Read.val_main_v18 (F := Ideal) x1 (ix1 t) = x1 (ix2 t (2 : Fin 3)) := by
  rw [Read.val_main_v18_apply, Read.val_main_v17_apply]
  exact congrArg x1 (funext fun a => Fin.ext (by
    match a with
    | ⟨0, _⟩ => exact Nat.div_one _
    | ⟨1, _⟩ => rfl))

variable (hr : ∀ i : S200000x3.Idx, (x1 i).toNat < 8192)
include hr

/-- The wrapped column 0 is column 0. -/
theorem v23_apply (t : Fin 200000) : Read.val_main_v23 (F := Ideal) x1 (ix1 t) = x1 (ix2 t (0 : Fin 3)) := by
  rw [Read.val_main_v23_apply, Read.val_main_v20_apply, Read.val_main_v22_apply, Read.val_main_v19_apply,
    Read.val_main_v21_apply, Read.val_main_c_apply, Read.val_main_c_2_apply, v14_apply]
  exact wrap_id _ (hr _)

/-- The wrapped column 1 is column 1. -/
theorem v28_apply (t : Fin 200000) : Read.val_main_v28 (F := Ideal) x1 (ix1 t) = x1 (ix2 t (1 : Fin 3)) := by
  rw [Read.val_main_v28_apply, Read.val_main_v25_apply, Read.val_main_v27_apply, Read.val_main_v24_apply,
    Read.val_main_v26_apply, Read.val_main_c_3_apply, Read.val_main_c_4_apply, v16_apply]
  exact wrap_id _ (hr _)

/-- The wrapped column 0, computed a second time. -/
theorem v37_apply (t : Fin 200000) : Read.val_main_v37 (F := Ideal) x1 (ix1 t) = x1 (ix2 t (0 : Fin 3)) := by
  rw [Read.val_main_v37_apply, Read.val_main_v34_apply, Read.val_main_v36_apply, Read.val_main_v33_apply,
    Read.val_main_v35_apply, Read.val_main_c_5_apply, Read.val_main_c_6_apply, v14_apply]
  exact wrap_id _ (hr _)

/-- The wrapped column 2 is column 2. -/
theorem v42_apply (t : Fin 200000) : Read.val_main_v42 (F := Ideal) x1 (ix1 t) = x1 (ix2 t (2 : Fin 3)) := by
  rw [Read.val_main_v42_apply, Read.val_main_v39_apply, Read.val_main_v41_apply, Read.val_main_v38_apply,
    Read.val_main_v40_apply, Read.val_main_c_7_apply, Read.val_main_c_8_apply, v18_apply]
  exact wrap_id _ (hr _)

/-- The start indices of the first gather: `(i, j)`. -/
theorem v31_apply0 (t : Fin 200000) : Read.val_main_v31 (F := Ideal) x1 (ix2 t (0 : Fin 2)) = x1 (ix2 t (0 : Fin 3)) := by
  unfold Read.val_main_v31
  rw [concat_cols_left, Read.val_main_v29_apply]
  exact v23_apply x1 hr t
/-- Its second component. -/
theorem v31_apply1 (t : Fin 200000) : Read.val_main_v31 (F := Ideal) x1 (ix2 t (1 : Fin 2)) = x1 (ix2 t (1 : Fin 3)) := by
  unfold Read.val_main_v31
  rw [concat_cols_right, Read.val_main_v30_apply]
  exact v28_apply x1 hr t

/-- The start indices of the second gather: `(i, k)`. -/
theorem v45_apply0 (t : Fin 200000) : Read.val_main_v45 (F := Ideal) x1 (ix2 t (0 : Fin 2)) = x1 (ix2 t (0 : Fin 3)) := by
  unfold Read.val_main_v45
  rw [concat_cols_left, Read.val_main_v43_apply]
  exact v37_apply x1 hr t
/-- Its second component. -/
theorem v45_apply1 (t : Fin 200000) : Read.val_main_v45 (F := Ideal) x1 (ix2 t (1 : Fin 2)) = x1 (ix2 t (2 : Fin 3)) := by
  unfold Read.val_main_v45
  rw [concat_cols_right, Read.val_main_v44_apply]
  exact v42_apply x1 hr t

end Columns

/-! ## The distance matrix -/

section Matrix
variable (x0 : (⟨S8192x128, .f32⟩ : BufTy).Contents (Elt Ideal))

/-- The row sums of the squared table: `0 + Σ_d x[a,d]²`. -/
theorem v1_apply (a : Fin 8192) : Read.val_main_v1 (F := Ideal) x0 (ix1 a) = Cert.Spec.rowdot x0 a a := by
  rw [Read.val_main_v1_apply, Read.val_main_cst_apply, Ideal.ofBits_def, Ideal.ofBits_zero_f32, zero_add]
  unfold Cert.Spec.rowdot
  refine Finset.sum_congr rfl fun k _ => ?_
  rw [Read.val_main_v0_apply]
  have e : Read.idx_main_v1 (ix1 a) k = ix2 a k :=
    funext fun d => Fin.ext (by match d with | ⟨0, _⟩ => rfl | ⟨1, _⟩ => rfl)
  rw [e]
  rfl

/-- The product of the table with its transpose: entry `(a, b)` is the inner product of rows `a` and `b`. -/
theorem v8_apply (a b : Fin 8192) : Read.val_main_v8 (F := Ideal) x0 (ix2 a b) = Cert.Spec.rowdot x0 a b := by
  rw [Read.val_main_v8_apply]
  unfold Cert.Spec.rowdot
  refine Finset.sum_congr rfl fun k _ => ?_
  rw [Read.val_main_v7_apply]
  have el : Read.lidx_main_v8 (ix2 a b) k = ix2 a k :=
    funext fun d => Fin.ext (by match d with | ⟨0, _⟩ => rfl | ⟨1, _⟩ => rfl)
  have er : Read.idx_main_v7 (Read.ridx_main_v8 (ix2 a b) k) = ix2 b k :=
    funext fun d => Fin.ext (by match d with | ⟨0, _⟩ => rfl | ⟨1, _⟩ => rfl)
  rw [el, er]

/-- Entry `(a, b)` of the clamped matrix is the squared distance of rows `a` and `b`. -/
theorem v12_apply (a b : Fin 8192) : Read.val_main_v12 (F := Ideal) x0 (ix2 a b) = Cert.Spec.dist x0 a b := by
  rw [Read.val_main_v12_apply, Read.val_main_call0_v1_apply, Read.val_main_call0_v0_apply, Read.val_main_cst_1_apply,
    Read.val_main_v11_apply, Read.val_main_v6_apply, Read.val_main_v10_apply, Read.val_main_v4_apply,
    Read.val_main_v5_apply, Read.val_main_v2_apply, Read.val_main_v3_apply, Read.val_main_v9_apply,
    Read.val_main_cst_0_apply]
  have e1 : Read.idx_main_v2 (Read.idx_main_v4 (ix2 a b)) = ix1 a :=
    funext fun d => Fin.ext (by match d with | ⟨0, _⟩ => rfl)
  have e2 : Read.idx_main_v3 (Read.idx_main_v5 (ix2 a b)) = ix1 b :=
    funext fun d => Fin.ext (by match d with | ⟨0, _⟩ => rfl)
  rw [e1, e2, v1_apply, v1_apply, v8_apply]
  simp only [Ideal.maximumf_def, Ideal.subf_def, Ideal.addf_def, Ideal.mulf_def, Ideal.ofBits_def,
    Ideal.ofBits_zero_f32]
  unfold Cert.Spec.dist
  exact max_comm _ _

end Matrix

/-! ## One triplet -/

section Triplet
variable (x0 : (⟨S8192x128, .f32⟩ : BufTy).Contents (Elt Ideal)) (x1 : (⟨S200000x3, .i32⟩ : BufTy).Contents (Elt Ideal))

/-- The point gather at start indices that name rows: the operand's entry at those rows. -/
theorem gather_point_row {α : Type} (x : S8192x8192.Idx → α) (idx : IVec S200000x2 32) (t : Fin 200000)
    (h0 : (idx (ix2 t (0 : Fin 2))).toNat < 8192) (h1 : (idx (ix2 t (1 : Fin 2))).toNat < 8192) :
    Host.gather G x idx (ix1 t)
      = x (ix2 (Cert.Spec.rowOf (idx (ix2 t (0 : Fin 2)))) (Cert.Spec.rowOf (idx (ix2 t (1 : Fin 2))))) := by
  rw [gather_point_apply, clamp_row _ h0, clamp_row _ h1]

/-- An extended real is not different from itself: the `x ≠ x` test never fires. -/
theorem cmpf_une_self (d : Ideal .f32) : FloatOps.cmpf (F := Ideal) .une d d = 0#1 := by
  show BitVec.ofBool (decide (d ≠ d)) = 0#1
  simp

variable (hr : ∀ i : S200000x3.Idx, (x1 i).toNat < 8192)
include hr

/-- The first gather: the distance of rows `i` and `j` of triplet `t`. -/
theorem v32_apply (t : Fin 200000) : Read.val_main_v32 (F := Ideal) x0 x1 (ix1 t)
    = Cert.Spec.dist x0 (Cert.Spec.rowOf (x1 (ix2 t (0 : Fin 3)))) (Cert.Spec.rowOf (x1 (ix2 t (1 : Fin 3)))) := by
  unfold Read.val_main_v32
  rw [gather_point_row _ _ t (by rw [v31_apply0 x1 hr]; exact hr _) (by rw [v31_apply1 x1 hr]; exact hr _),
    v31_apply0 x1 hr, v31_apply1 x1 hr, v12_apply]

/-- The second gather: the distance of rows `i` and `k` of triplet `t`. -/
theorem v46_apply (t : Fin 200000) : Read.val_main_v46 (F := Ideal) x0 x1 (ix1 t)
    = Cert.Spec.dist x0 (Cert.Spec.rowOf (x1 (ix2 t (0 : Fin 3)))) (Cert.Spec.rowOf (x1 (ix2 t (2 : Fin 3)))) := by
  unfold Read.val_main_v46
  rw [gather_point_row _ _ t (by rw [v45_apply0 x1 hr]; exact hr _) (by rw [v45_apply1 x1 hr]; exact hr _),
    v45_apply0 x1 hr, v45_apply1 x1 hr, v12_apply]

/-- One triplet's contribution. -/
theorem v48_apply (t : Fin 200000) : Read.val_main_v48 (F := Ideal) x0 x1 (ix1 t)
    = Cert.Spec.term x0 (x1 (ix2 t (0 : Fin 3))) (x1 (ix2 t (1 : Fin 3))) (x1 (ix2 t (2 : Fin 3))) := by
  rw [Read.val_main_v48_apply, Read.val_main_call1_v4_apply, cmpf_une_self, select_zero,
    Read.val_main_call1_v11_apply, Read.val_main_call1_v1_apply, Read.val_main_call1_v10_apply,
    Read.val_main_call1_v9_apply, Read.val_main_call1_v8_apply, Read.val_main_call1_v7_apply,
    Read.val_main_call1_v3_apply, Read.val_main_call1_v0_apply, Read.val_main_call1_v2_apply,
    Read.val_main_call1_cst_apply, Read.val_main_v47_apply,
    v32_apply x0 x1 hr, v46_apply x0 x1 hr]
  simp only [Ideal.maximumf_def, Ideal.subf_def, Ideal.addf_def, Ideal.ofBits_def, Ideal.ofBits_zero_f32,
    Ideal.hostUnary_log1p_def, Ideal.hostUnary_exp_def, Ideal.hostNegf_def, Ideal.hostAbsf_def, Ideal.negf_def,
    Ideal.absf_def, sub_zero]
  rfl

end Triplet

/-! ## The mean -/

/-- A rank-1 index set is its coordinate's range … -/
def idxEquiv1 {n : Nat} : (⟨1, ![n]⟩ : Shape).Idx ≃ Fin n where
  toFun i := i 0
  invFun t := ix1 t
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ t : Fin n, f (ix1 t) := by
  rw [← Equiv.sum_comp (idxEquiv1 (n := n)).symm f]
  rfl

/-- The reference's result stage is the specification's mean, when every index word names a row. -/
theorem ref_value (x0 : (⟨S8192x128, .f32⟩ : BufTy).Contents (Elt Ideal)) (x1 : (⟨S200000x3, .i32⟩ : BufTy).Contents (Elt Ideal))
    (hr : ∀ i : S200000x3.Idx, (x1 i).toNat < 8192) (i : S1.Idx) :
    Cert.ReferenceIdeal.Read.val_main_v51 (F := Ideal) x0 x1 i = Cert.Spec.loss x0 x1 := by
  rw [Read.val_main_v51_apply, Read.val_main_v50_apply, Read.val_main_cst_10_apply, Read.val_main_v49_apply,
    Read.val_main_cst_9_apply, Ideal.hostDivf_def, Ideal.ofBits_def, Ideal.ofBits_def, Ideal.ofBits_zero_f32,
    zero_add, sum_idx1]
  unfold Cert.Spec.loss Cert.Spec.total
  exact congrArg (Ideal.div · (Ideal.ofBits .f32 0x48435000#32)) (Finset.sum_congr rfl fun t _ => v48_apply x0 x1 hr t)

end Cert.ReferenceIdeal.RefValue
end
-- ==== Proof.PreDecode.lean ====
/- The printed finiteness-and-range precondition, read back: when it answers "true", every entry of
the table is a real number (neither infinity) and every index word, read unsigned, is below 8192. -/
import proofs.«404929_j80427557585292_3_alg».proof.Pre_finite_inputs
import proofs.«404929_j80427557585292_3_alg».proof.Proof.Gen.Pre_finite_inputs
import Idealize.ShloMosaic.PureOps.Ideal
import Idealize.ShloMosaic.Lib.ReduceAll
import Idealize.ShloMosaic.Lib.ValueIdx
import Idealize.ShloMosaic.Lib.StableHlo.Predicate

noncomputable section
namespace Cert.PreDecode
open Idealize.ShloMosaic

/-- A rank-0 array has one index. -/
instance : Subsingleton Cert.Pre_finite_inputs.S_.Idx := ⟨fun a b => funext fun d => d.elim0⟩

/-- The pattern 0x7F800000 (sign 0, exponent all ones, fraction 0) denotes +∞. -/
theorem ofBits_inf : Ideal.ofBits .f32 0x7F800000#32 = (⊤ : EReal) := by
  simp [Ideal.ofBits, Ideal.ieee]

/-- An extended real whose absolute value max x (−x) is strictly below +∞ is a real: at either
infinity the maximum is +∞. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- A 32-bit word that is at least 0 and below 8192 as a signed number is below 8192 as an
unsigned one: its sign bit is clear, so the two readings agree. -/
theorem toNat_lt_of_signed (w : BitVec 32) (h0 : IntOp.cmpi .sge w 0#32 = 1#1)
    (h1 : IntOp.cmpi .slt w 8192#32 = 1#1) : w.toNat < 8192 := by
  unfold IntOp.cmpi at h0 h1
  rw [StableHlo.Predicate.ofBool_eq_one_iff] at h0 h1
  simp only [BitVec.slt, BitVec.sle, decide_eq_true_eq] at h0 h1
  have h32 := w.isLt
  have e0 : (0#32 : BitVec 32).toInt = 0 := by decide
  have e1 : (8192#32 : BitVec 32).toInt = 8192 := by decide
  rw [e0] at h0
  rw [e1] at h1
  rw [BitVec.toInt_eq_toNat_cond] at h0 h1
  split at h0 <;> omega

theorem decode (X : FVec Ideal Cert.Pre_finite_inputs.S8192x128 .f32) (T : IVec Cert.Pre_finite_inputs.S200000x3 32)
    (h : Cert.Pre_finite_inputs.fn (F := Ideal) X T = fun _ => 1#1) :
    (∀ i, ∃ r : ℝ, X i = (r : EReal)) ∧ (∀ i, (T i).toNat < 8192) := by
  have e := congrFun h ValueIdx.ix0
  dsimp only [Cert.Pre_finite_inputs.fn] at e
  -- the answer is the conjunction of three reductions by "and"; each is 1
  obtain ⟨e12, e3⟩ := IntOp.andi_eq_one.1 e
  obtain ⟨e1, e2⟩ := IntOp.andi_eq_one.1 e12
  refine ⟨fun i => ?_, fun i => ?_⟩
  · -- the entry's comparison |x| < +∞ is 1
    have a := Host.reduce_andi_all _ _ _ _ _ e1 i
    -- the broadcast scalar reads the constant at every index, whatever index of the scalar it names
    have a' : Ideal.cmp .olt (max (X i) (-(X i))) (Ideal.ofBits .f32 0x7F800000#32) = 1#1 := a
    rw [ofBits_inf] at a'
    unfold Ideal.cmp at a'
    rw [StableHlo.Predicate.ofBool_eq_one_iff, decide_eq_true_eq] at a'
    exact real_of_abs_lt_top _ a'
  · -- the word's two signed comparisons, against 0 and against 8192, are 1
    have b0 := Host.reduce_andi_all _ _ _ _ _ e2 i
    have b1 := Host.reduce_andi_all _ _ _ _ _ e3 i
    have b0' : IntOp.cmpi .sge (T i) 0#32 = 1#1 := b0
    have b1' : IntOp.cmpi .slt (T i) 8192#32 = 1#1 := b1
    exact toNat_lt_of_signed _ b0' b1'

end Cert.PreDecode
end
-- ==== Proof.lean ====
/-
  The certificate of the triplet loss: the kernel that gathers the three rows of each triplet by one-hot matrix
  products and accumulates `softplus (dist i j − dist i k)` over a 2 × 98 grid of blocks of 1024 triplets, against
  the reference that gathers from the full 8192 × 8192 matrix of clamped squared distances and takes the mean.

  Under the precondition — every entry of the table finite, every index of a triplet in [0, 8192) — both results
  are `Spec.loss` of the argument arrays (Proof/Spec.lean), entry by entry over the extended reals:
  * the kernel's: one grid point is a pure function of its blocks (Proof/KStep.lean, read off the body's stores in
    Proof/Pieces.lean); the one-hot products pick rows of the table (Proof/Gather.lean), the lane sums and the
    softplus are the term of a triplet (Proof/PointMath.lean); the blocks are those of the padded triplet list and
    of the stacked table (Proof/HostPre.lean); the running sum over a core's points and the result array are in
    Proof/KRun.lean, the host's sum and quotient in Proof/Tail.lean, and Proof/KValue.lean adds it all up, the
    padded positions contributing zero (Proof/Algebra.lean);
  * the reference's: Proof/RefValue.lean, over the reference's run read one operation at a time.
  The precondition is opened in Proof/PreDecode.lean. The three programs run, and leave their arguments unchanged,
  whatever the inputs; the idealized kernel is the kernel's own text read at the exact instance (no rewrite).
-/
import proofs.«404929_j80427557585292_3_alg».proof.Defs
import proofs.«404929_j80427557585292_3_alg».proof.Proof.Gen.Kernel
import proofs.«404929_j80427557585292_3_alg».proof.Proof.Gen.Kernel.Skeleton
import proofs.«404929_j80427557585292_3_alg».proof.Proof.Gen.Kernel.Loops
import proofs.«404929_j80427557585292_3_alg».proof.Proof.Gen.Kernel.Launch
import proofs.«404929_j80427557585292_3_alg».proof.Proof.Gen.Kernel.Points
import proofs.«404929_j80427557585292_3_alg».proof.Proof.Gen.Kernel.Frame
import proofs.«404929_j80427557585292_3_alg».proof.Proof.Gen.KernelIdeal
import proofs.«404929_j80427557585292_3_alg».proof.Proof.Gen.KernelIdeal.Skeleton
import proofs.«404929_j80427557585292_3_alg».proof.Proof.Gen.KernelIdeal.Loops
import proofs.«404929_j80427557585292_3_alg».proof.Proof.Gen.KernelIdeal.Launch
import proofs.«404929_j80427557585292_3_alg».proof.Proof.Gen.KernelIdeal.Points
import proofs.«404929_j80427557585292_3_alg».proof.Proof.Gen.KernelIdeal.Frame
import proofs.«404929_j80427557585292_3_alg».proof.Proof.Gen.ReferenceIdeal
import proofs.«404929_j80427557585292_3_alg».proof.Proof.Gen.ReferenceIdeal.Run
import proofs.«404929_j80427557585292_3_alg».proof.Proof.Gen.ReferenceIdeal.Read
import proofs.«404929_j80427557585292_3_alg».proof.Proof.Gen.Pre_finite_inputs
import proofs.«404929_j80427557585292_3_alg».proof.Proof.KValue
import proofs.«404929_j80427557585292_3_alg».proof.Proof.RefValue
import proofs.«404929_j80427557585292_3_alg».proof.Proof.PreDecode
import Idealize.ShloMosaic.Adequacy
import Idealize.ShloMosaic.Init

noncomputable section

namespace Cert.Proof

open Idealize.ShloMosaic Idealize.SL.Sem

/-- The kernel as printed runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does the kernel read at the exact instance. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

section KernelRun
open Cert.KernelIdeal Cert.KernelIdeal.Gen

/-- The kernel's run at the exact instance, under the precondition: its result is the mean of the triplets'
    contributions, its arguments are unchanged. -/
theorem kernel_run (m : (ℓ : Loc nD τ sig) → Buf (Elt Ideal) ℓ) (ρ : Dev nD → PrngReg)
    (hPre : Cert.Pre_KernelIdeal (hPre_finite_inputs := Cert.Pre_finite_inputs.Gen.facts) m) :
    θ_run (defs (F := Ideal)) (onTc (τ := τ) (main (F := Ideal))) ⟨m, fun _ => 0, ρ⟩ (fun r => ∀ c : Dev nD,
      r.2.mem ((c.tc : Thread nD τ).loc main_v15)
        = (fun _ => Cert.Spec.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ?_) (run_main m ρ)
  obtain ⟨hfin, hrange⟩ := Cert.PreDecode.decode _ _ (hPre c)
  refine ⟨?_, ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩
  refine ((h c).2 main_v15 (Pipeline.mem_restRefs_of main_v15 (by decide) (by decide))).trans ?_
  refine (Cert.KernelIdeal.Tail.tail_eq m c).trans ?_
  rw [Cert.KernelIdeal.KRun.final m c]
  funext i
  exact Cert.KernelIdeal.KValue.kernel_value m c hfin hrange i

end KernelRun

/-- Run from memories that agree on the arguments, the idealized kernel and the idealized reference end with the
    same result, the mean of the triplets' contributions, entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hPre hagree
  refine ⟨_, kernel_run m ρ hPre, ?_⟩
  refine (θ_run Cert.ReferenceIdeal.defs _ _).mono (fun _ h c => ⟨?_, (h c).2⟩)
    (Cert.ReferenceIdeal.Value.run (F := Ideal) m' ρ')
  obtain ⟨_, hrange⟩ := Cert.PreDecode.decode _ _ (hPre c)
  rw [(h c).1, Cert.ReferenceIdeal.Read.val_main_v51_eq, (hagree c).1, (hagree c).2]
  funext i
  exact Cert.ReferenceIdeal.RefValue.ref_value _ _ hrange i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
